-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .hbm, ⟨9, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x64, .f32⟩
  | .local _ .vmem, ⟨4, _⟩ => ⟨S400x10000, .f32⟩
  | .local _ .vmem, ⟨5, _⟩ => ⟨S400x10000, .f32⟩
  | .local _ .vmem, ⟨6, _⟩ => ⟨S400x64, .f32⟩
  | .local _ .vmem, ⟨7, _⟩ => ⟨S400x64, .f32⟩
  | .local _ .vmem, ⟨8, _⟩ => ⟨S10000x128, .f32⟩
  | .local _ .vmem, ⟨9, _⟩ => ⟨S10000x64, .f32⟩
  | .local _ .vmem, ⟨10, _⟩ => ⟨S1x64, .f32⟩
  | .local _ .vmem, ⟨11, _⟩ => ⟨S400x10000, .f32⟩
  | .local _ .vmem, ⟨12, _⟩ => ⟨S400x10000, .f32⟩
  | .local _ .vmem, ⟨13, _⟩ => ⟨S400x64, .f32⟩
  | .local _ .vmem, ⟨14, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .f32 = 32 ∨ (Rect.block (s := S10000x10000) S400x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v2) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .i1⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x1, .f32⟩
  | .hbm, ⟨36, _⟩ => ⟨S10000x64, .f32⟩
  | .hbm, ⟨37, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v15 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.IdealHiddenDefs.lean ====
/-
  The first kernel region: one row block of the second layer's support.

  The kernel keeps s1 = x · W1 (10000×128) in a scratch buffer: the first grid point computes it from the staged x and W1
  and stores it whole; every later point finds it there. At grid point t the body then reads rows 400t … 400t+399 of the
  adjacency (400×10000), the bias row b1 (1×128) and W2 (128×64), and stores into the output block (400×64)
  leaky(adj_blk · s1 + b1) · W2, where leaky h = h for h ≥ 0 and 0.2·h otherwise. The staged x and W1 are the whole
  arrays at every point, so what the scratch holds after any point is one value, independent of the point.
-/
import proofs.«144608_g13657996001618_cont_week2b_1100_2_alg».proof.Proof.Gen.KernelIdeal.Launch
import proofs.«144608_g13657996001618_cont_week2b_1100_2_alg».proof.Proof.Gen.KernelIdeal.Skeleton
import proofs.«144608_g13657996001618_cont_week2b_1100_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hidden

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid's first point. -/
abbrev t0 : Fin cfg0.N := ⟨0, Nat.lt_of_lt_of_eq (by decide : 0 < 25) N_0.symm⟩

/-- What the scratch holds after every point: x · W1, from the blocks of x and W1 the first point is handed. -/
def support (c : Dev nD) : Vec F S10000x128 .f32 := k0_pay1 (blk V c 0 t0) (blk V c 1 t0)

/-- The region's invariant before position `t`: before the first point the plain one; afterwards the scratch at
    `support`, the other scoped buffers that are no staging buffer of this region at some contents each, and the
    generator register at some state. -/
def Phi (c : Dev nD) (t : Fin (cfg0.N + 1)) : sProp 𝕄 :=
  if t.val = 0 then Pipeline.ΦA spec0 c
  else iprop(owns (c : Thread nD τ) (Memref.whole cc0_scratch0) fullShare (support V c)
    ∗ ((∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))
    ∗ ∃ r, prngReg c r)

/-- The region's proof data: the arrays as found; after the body each input's buffer still holds its block and the
    output's holds the body's stored value over the scratch's `support`. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k0_pay2 (blk V c 4 t) (support V c) (blk V c 2 t) (blk V c 3 t)
  Φ t := Phi V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk V c 0 t := by dsimp only [dat0]
theorem after0_1 (c : Dev nD) (t : Fin cfg0.N) : (dat0 V c).after 1 t = blk V c 1 t := by dsimp only [dat0]
theorem after0_2 (c : Dev nD) (t : Fin cfg0.N) : (dat0 V c).after 2 t = blk V c 2 t := by dsimp only [dat0]
theorem after0_3 (c : Dev nD) (t : Fin cfg0.N) : (dat0 V c).after 3 t = blk V c 3 t := by dsimp only [dat0]
theorem after0_4 (c : Dev nD) (t : Fin cfg0.N) : (dat0 V c).after 4 t = blk V c 4 t := by dsimp only [dat0]
theorem after0_5 (c : Dev nD) (t : Fin cfg0.N) :
    (dat0 V c).after 5 t = k0_pay2 (blk V c 4 t) (support V c) (blk V c 2 t) (blk V c 3 t) := by dsimp only [dat0]

end Cert.KernelIdeal.Hidden

end
-- ==== Proof.IdealHidden.lean ====
/-
  The first kernel region: one row block of the second layer's support — the body's run at a grid point and the
  region's invariant.

  The kernel keeps s1 = x · W1 (10000×128) in a scratch buffer: the first grid point computes it from the staged x and W1
  and stores it whole; every later point finds it there. At grid point t the body then reads rows 400t … 400t+399 of the
  adjacency (400×10000), the bias row b1 (1×128) and W2 (128×64), and stores into the output block (400×64)
  leaky(adj_blk · s1 + b1) · W2, where leaky h = h for h ≥ 0 and 0.2·h otherwise. The staged x and W1 are the whole
  arrays at every point, so what the scratch holds after any point is one value, independent of the point.
-/
import proofs.«144608_g13657996001618_cont_week2b_1100_2_alg».proof.Proof.IdealHiddenDefs
import proofs.«144608_g13657996001618_cont_week2b_1100_2_alg».proof.Proof.Gen.KernelIdeal.Launch
import proofs.«144608_g13657996001618_cont_week2b_1100_2_alg».proof.Proof.Gen.KernelIdeal.Skeleton
import proofs.«144608_g13657996001618_cont_week2b_1100_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hidden

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's conditional and its two runs -/

/-- The condition of the body's conditional ("this is the first grid point"), from the grid coordinates. -/
abbrev isFirst (i : grid0.Coords) : Prop :=
  (Scalar.cmpi .ne (Scalar.extui (Scalar.cmpi .eq (BitVec.ofNat 32 (i 0).val) 0#32)) 0#32) = 1#1

/-- It holds at the first point only. -/
theorem isFirst_iff : ∀ t : Fin cfg0.N, isFirst (grid0.coords t) ↔ t.val = 0 :=
  (by decide +kernel : ∀ t : Fin grid0.N, isFirst (grid0.coords t) ↔ t.val = 0)

/-- The offsets of every load and store of the body are zero. -/
theorem off00 : (![0, 0] : Fin 2 → ℕ) = fun _ => 0 := by
  funext a; fin_cases a <;> rfl

/-- One store through the whole-shape rectangle at zero offsets leaves its payload, whatever the buffer held. -/
theorem read_store_whole {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f [(⟨Rect.unit off S.size inb, w⟩ : View.Piece Val S e)]
    (fun y => ⟨_, List.mem_singleton_self _, View.mem_set_unit_zero h inb y⟩)).trans (View.canon_unit_zero h inb w)

set_option maxHeartbeats 1000000 in
/-- The body at the first point: x · W1 goes into the scratch whatever it held, and the output block is computed from it. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S400x10000 .f32) (harg5 : arg5.IsWhole) (arg6 : Memref sig .tc .vmem S400x64 .f32) (harg6 : arg6.IsWhole)
    (arg7 : Memref sig .tc .vmem S10000x128 .f32) (harg7 : arg7.IsWhole) (hc : isFirst i)
    (x0 : Vec F S10000x128 .f32) (x1 : Vec F S128x128 .f32) (x2 : Vec F S1x128 .f32) (x3 : Vec F S128x64 .f32) (x4 : Vec F S400x10000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x4 (k0_pay1 x0 x1) x2 x3)
            ∗ owns (c : Thread nD τ) arg7 fullShare (k0_pay1 x0 x1)) -∗ K ⟨⟩))
      ⊢ wp frame (wpE (defs₀ (F := F)) Variants.none c none) E
          (cc0__gc1_body i arg1 harg1 arg2 harg2 arg3 harg3 arg4 harg4 arg5 harg5 arg6 harg6 arg7 harg7) K := by
  simp only [cc0__gc1_body_eq_skeleton]; unfold cc0__gc1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_store_whole _ _ off00]
    sl_unfold_run_names
    simp only [View.readAt_eq_ld, Memref.IsWhole.read_unread, View.readCov_unit_zero (S := S10000x128) _ off00,
      View.ld_unit_zero (S := S400x10000) off00, View.ld_unit_zero (S := S10000x128) off00,
      View.ld_unit_zero (S := S128x128) off00, View.ld_unit_zero (S := S1x128) off00, View.ld_unit_zero (S := S128x64) off00]
  · iexists _; isplitr
    swap; · iexact H6
    ipureintro
    sl_unfold_run_names
    rw [read_store_whole _ _ off00]
    simp only [View.readAt_eq_ld, Memref.IsWhole.read_unread,
      View.ld_unit_zero (S := S400x10000) off00, View.ld_unit_zero (S := S10000x128) off00,
      View.ld_unit_zero (S := S128x128) off00, View.ld_unit_zero (S := S1x128) off00, View.ld_unit_zero (S := S128x64) off00]

set_option maxHeartbeats 1000000 in
/-- The body at a later point: the scratch is read and left as it is, and the output block is computed from it. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S400x10000 .f32) (harg5 : arg5.IsWhole) (arg6 : Memref sig .tc .vmem S400x64 .f32) (harg6 : arg6.IsWhole)
    (arg7 : Memref sig .tc .vmem S10000x128 .f32) (harg7 : arg7.IsWhole) (hc : ¬isFirst i)
    (x2 : Vec F S1x128 .f32) (x3 : Vec F S128x64 .f32) (x4 : Vec F S400x10000 .f32) (s : Vec F S10000x128 .f32)
    (E : Set ℕ) (K : PUnit → sProp 𝕄) :
    iprop(owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg3 fullShare x2 ∗ owns (c : Thread nD τ) arg4 fullShare x3 ∗ owns (c : Thread nD τ) arg5 fullShare x4
            ∗ owns (c : Thread nD τ) arg6 fullShare (k0_pay2 x4 s x2 x3)
            ∗ owns (c : Thread nD τ) arg7 fullShare s) -∗ K ⟨⟩))
      ⊢ wp frame (wpE (defs₀ (F := F)) Variants.none c none) E
          (cc0__gc1_body i arg1 harg1 arg2 harg2 arg3 harg3 arg4 harg4 arg5 harg5 arg6 harg6 arg7 harg7) K := by
  simp only [cc0__gc1_body_eq_skeleton]; unfold cc0__gc1_body_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg3.eq_unread hf2; obtain rfl := harg4.eq_unread hf3; obtain rfl := harg5.eq_unread hf4
  obtain rfl := harg7.eq_unread hf6
  sl_exec (disch := first | exact hc)
  sl_step
  iapply Hk
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_store_whole _ _ off00]
    sl_unfold_run_names
    simp only [View.readAt_eq_ld, Memref.IsWhole.read_unread,
      View.ld_unit_zero (S := S400x10000) off00, View.ld_unit_zero (S := S10000x128) off00,
      View.ld_unit_zero (S := S128x128) off00, View.ld_unit_zero (S := S1x128) off00, View.ld_unit_zero (S := S128x64) off00]
  · iexists _; isplitr; · ipureintro; exact harg7.read_unread _
    iexact H6

/-! ## What the body finds in the inputs' staging buffers -/

/-- An input's current staging buffer holds its block at every point, fetched there or not: no window of this region is
    cut or ever idle, and the body leaves every input's block in place. -/
theorem before0_0 (c : Dev nD) (t : Fin cfg0.N) (d) : (dat0 V c).before 0 t d = blk V c 0 t :=
  ((dat0 V c).before_in_eq_fetched 0 rfl (fun _ => rfl) (fun _ _ _ => rfl)
    (fun t => by rw [after0_0]; unfold Dat.blockOf blk; rw [A_eq0]; try rfl) t d).trans
    (by unfold Dat.fetched Dat.blockOf blk; rw [A_eq0]; try rfl)
theorem before0_1 (c : Dev nD) (t : Fin cfg0.N) (d) : (dat0 V c).before 1 t d = blk V c 1 t :=
  ((dat0 V c).before_in_eq_fetched 1 rfl (fun _ => rfl) (fun _ _ _ => rfl)
    (fun t => by rw [after0_1]; unfold Dat.blockOf blk; rw [A_eq0]; try rfl) t d).trans
    (by unfold Dat.fetched Dat.blockOf blk; rw [A_eq0]; try rfl)
theorem before0_2 (c : Dev nD) (t : Fin cfg0.N) (d) : (dat0 V c).before 2 t d = blk V c 2 t :=
  ((dat0 V c).before_in_eq_fetched 2 rfl (fun _ => rfl) (fun _ _ _ => rfl)
    (fun t => by rw [after0_2]; unfold Dat.blockOf blk; rw [A_eq0]; try rfl) t d).trans
    (by unfold Dat.fetched Dat.blockOf blk; rw [A_eq0]; try rfl)
theorem before0_3 (c : Dev nD) (t : Fin cfg0.N) (d) : (dat0 V c).before 3 t d = blk V c 3 t :=
  ((dat0 V c).before_in_eq_fetched 3 rfl (fun _ => rfl) (fun _ _ _ => rfl)
    (fun t => by rw [after0_3]; unfold Dat.blockOf blk; rw [A_eq0]; try rfl) t d).trans
    (by unfold Dat.fetched Dat.blockOf blk; rw [A_eq0]; try rfl)
theorem before0_4 (c : Dev nD) (t : Fin cfg0.N) (d) : (dat0 V c).before 4 t d = blk V c 4 t :=
  ((dat0 V c).before_in_eq_fetched 4 rfl (fun _ => rfl) (fun _ _ _ => rfl)
    (fun t => by rw [after0_4]; unfold Dat.blockOf blk; rw [A_eq0]; try rfl) t d).trans
    (by unfold Dat.fetched Dat.blockOf blk; rw [A_eq0]; try rfl)

/-! ## The invariant's two forms -/

/-- The six scoped buffers that belong to the other region, each at some contents. -/
abbrev others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The plain invariant, the scratch as a memref owned at some contents. -/
theorem PhiA_eq (c : Dev nD) :
    (Pipeline.ΦA spec0 c : sProp 𝕄)
      = iprop(((∃ d, owns (c : Thread nD τ) (Memref.whole cc0_scratch0) fullShare d) ∗ others (F := F) c) ∗ ∃ r, prngReg c r) := by
  unfold Pipeline.ΦA; rw [scopedRest0_eq]; simp only [owns_whole]; try rfl

/-- Before the first point the invariant is the plain one; -/
theorem Phi_zero (c : Dev nD) (t : Fin (cfg0.N + 1)) (h : t.val = 0) : Phi V c t = Pipeline.ΦA spec0 c := by
  unfold Phi; rw [if_pos h]

/-- afterwards the scratch is owned at x · W1. -/
theorem Phi_pos (c : Dev nD) (t : Fin (cfg0.N + 1)) (h : t.val ≠ 0) :
    Phi V c t = iprop(owns (c : Thread nD τ) (Memref.whole cc0_scratch0) fullShare (support V c) ∗ others (F := F) c ∗ ∃ r, prngReg c r) := by
  unfold Phi; rw [if_neg h]

/-! ## The body obligation -/

/-- The staging memrefs the body is called with at point `t`, and the scratch. -/
abbrev m0 (t : Fin cfg0.N) : Memref sig .tc .vmem S10000x128 .f32 := win0_0.stage (cfg0.slots t 0)
abbrev m1 (t : Fin cfg0.N) : Memref sig .tc .vmem S128x128 .f32 := win0_1.stage (cfg0.slots t 1)
abbrev m2 (t : Fin cfg0.N) : Memref sig .tc .vmem S1x128 .f32 := win0_2.stage (cfg0.slots t 2)
abbrev m3 (t : Fin cfg0.N) : Memref sig .tc .vmem S128x64 .f32 := win0_3.stage (cfg0.slots t 3)
abbrev m4 (t : Fin cfg0.N) : Memref sig .tc .vmem S400x10000 .f32 := win0_4.stage (cfg0.slots t 4)
abbrev m5 (t : Fin cfg0.N) : Memref sig .tc .vmem S400x64 .f32 := win0_5.stage (cfg0.slots t 5)
abbrev scr : Memref sig .tc .vmem S10000x128 .f32 := Memref.whole cc0_scratch0

set_option maxHeartbeats 4000000 in
/-- The body at any point. At the first point the invariant hands the scratch over at anything and takes it back at
    x · W1 of the blocks staged there, which is `support`; at a later point it hands it over at `support` and takes it back
    unchanged. Either way the output block is the body's value over `support`. -/
theorem sound_body0 (c : Dev nD) (t : Fin cfg0.N) :
    iprop((dat0 V c).Φ t.castSucc ∗ (dat0 V c).owesAt () t.castSucc
      ∗ (∃ d, owns (c : Thread nD τ) (m0 t) fullShare ((dat0 V c).before 0 t d))
      ∗ (∃ d, owns (c : Thread nD τ) (m1 t) fullShare ((dat0 V c).before 1 t d))
      ∗ (∃ d, owns (c : Thread nD τ) (m2 t) fullShare ((dat0 V c).before 2 t d))
      ∗ (∃ d, owns (c : Thread nD τ) (m3 t) fullShare ((dat0 V c).before 3 t d))
      ∗ (∃ d, owns (c : Thread nD τ) (m4 t) fullShare ((dat0 V c).before 4 t d))
      ∗ (∃ d, owns (c : Thread nD τ) (m5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t
        ∗ (dat0 V c).leavesExact 3 t ∗ (dat0 V c).leavesExact 4 t ∗ (dat0 V c).leavesExact 5 t)) := by
  unfold bodyAt0
  simp only [before0_0, before0_1, before0_2, before0_3, before0_4]
  rw [show (dat0 V c).owesAt () t.succ = (dat0 V c).owesAt () t.castSucc from rfl]
  rw [show (dat0 V c).leavesExact 0 t = owns (c : Thread nD τ) (m0 t) fullShare ((dat0 V c).after 0 t) from rfl, after0_0]
  rw [show (dat0 V c).leavesExact 1 t = owns (c : Thread nD τ) (m1 t) fullShare ((dat0 V c).after 1 t) from rfl, after0_1]
  rw [show (dat0 V c).leavesExact 2 t = owns (c : Thread nD τ) (m2 t) fullShare ((dat0 V c).after 2 t) from rfl, after0_2]
  rw [show (dat0 V c).leavesExact 3 t = owns (c : Thread nD τ) (m3 t) fullShare ((dat0 V c).after 3 t) from rfl, after0_3]
  rw [show (dat0 V c).leavesExact 4 t = owns (c : Thread nD τ) (m4 t) fullShare ((dat0 V c).after 4 t) from rfl, after0_4]
  rw [show (dat0 V c).leavesExact 5 t = owns (c : Thread nD τ) (m5 t) fullShare ((dat0 V c).after 5 t) from rfl, after0_5]
  rw [show (dat0 V c).Φ t.succ = Phi V c t.succ from rfl, Phi_pos V c t.succ (by rw [Fin.val_succ]; omega)]
  rw [show (dat0 V c).Φ t.castSucc = Phi V c t.castSucc from rfl]
  by_cases hz : t.val = 0
  · have ht : t = t0 := Fin.ext hz
    subst ht
    rw [Phi_zero V c t0.castSucc (by rw [Fin.coe_castSucc]), PhiA_eq]
    unfold support
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (run_first c (grid0.coords t0) _ _ _ _ _ _ _ _ _ _ _ _ _ _ ((isFirst_iff t0).mpr rfl)
      (blk V c 0 t0) (blk V c 1 t0) (blk V c 2 t0) (blk V c 3 t0) (blk V c 4 t0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi_pos V c t.castSucc (by rw [Fin.coe_castSucc]; exact hz)]
    iintro ⟨⟨HS, HR, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => hz ((isFirst_iff t).mp h))
      (blk V c 2 t) (blk V c 3 t) (blk V c 4 t) (support V c) Set.univ _)
    isplitl [H2]; · iexact H2
    isplitl [H3]; · iexact H3
    isplitl [H4]; · iexact H4
    isplitl [H5]; · iexists _; iexact H5
    isplitl [HS]; · iexact HS
    iintro ⟨H2, H3, H4, H5, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation at every point. -/
theorem body_obligation0 (c : Dev nD) : BodyObligation (dat0 (F := F) V c) (defs₀ (F := F)) Variants.none () Set.univ := fun t => by
  rw [bigSep_W0, bigSep_W0]
  exact sound_body0 V c t

/-- What the region is handed (the plain invariant) is the invariant before the first point. -/
theorem hin0 (c : Dev nD) : Pipeline.ΦA spec0 c ⊢ (dat0 V c).Φ 0 := by
  rw [show (dat0 V c).Φ 0 = Phi V c 0 from rfl, Phi_zero V c 0 rfl]

/-- After the last point the invariant gives the plain one back: the scratch's contents are forgotten. -/
theorem hout0 (c : Dev nD) : (dat0 V c).Φ (Fin.last cfg0.N) ⊢ Pipeline.ΦA spec0 c := by
  rw [show (dat0 V c).Φ (Fin.last cfg0.N) = Phi V c (Fin.last cfg0.N) from rfl,
    Phi_pos V c (Fin.last cfg0.N) (by rw [Fin.val_last]; have : cfg0.N = 25 := N_0; omega), PhiA_eq]
  iintro ⟨HS, HR, Hg⟩
  isplitl [HS HR]
  · isplitl [HS]; · iexists _; iexact HS
    iexact HR
  iexact Hg

end Cert.KernelIdeal.Hidden

end
-- ==== Proof.IdealLogitsDefs.lean ====
/-
  The second kernel region: one row block of the logits and their log-softmax.

  At grid point t the body reads three staged blocks — the whole hidden product s2 (10000×64), the bias row b2 (1×64)
  and rows 400t … 400t+399 of the adjacency (400×10000) — and stores into the output block (400×64) the value
  e − log Σ_j exp e, where o = adj_blk · s2 + b2, m = max_j o and e = o − m, all taken row by row. Nothing is carried
  from one point to the next, so the region's invariant is the plain one (the scoped buffers that are no staging
  buffer, and the generator register, untouched).
-/
import proofs.«144608_g13657996001618_cont_week2b_1100_2_alg».proof.Proof.Gen.KernelIdeal.Launch
import proofs.«144608_g13657996001618_cont_week2b_1100_2_alg».proof.Proof.Gen.KernelIdeal.Skeleton
import proofs.«144608_g13657996001618_cont_week2b_1100_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Logits

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as found; after the body each input's buffer still holds its block and the
    output's holds the body's one stored value, the log-softmax of the block's logits. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => k1_pay1 (blk V c 2 t) (blk V c 0 t) (blk V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk V c 0 t := by dsimp only [dat1]
theorem after1_1 (c : Dev nD) (t : Fin cfg1.N) : (dat1 V c).after 1 t = blk V c 1 t := by dsimp only [dat1]
theorem after1_2 (c : Dev nD) (t : Fin cfg1.N) : (dat1 V c).after 2 t = blk V c 2 t := by dsimp only [dat1]
theorem after1_3 (c : Dev nD) (t : Fin cfg1.N) :
    (dat1 V c).after 3 t = k1_pay1 (blk V c 2 t) (blk V c 0 t) (blk V c 1 t) := by dsimp only [dat1]

end Cert.KernelIdeal.Logits

end
-- ==== Proof.IdealLogits.lean ====
/-
  The second kernel region's body, at every grid point.

  At grid point t the body reads three staged blocks — the whole hidden product s2 (10000×64), the bias row b2 (1×64)
  and rows 400t … 400t+399 of the adjacency (400×10000) — and stores into the output block (400×64) the value
  e − log Σ_j exp e, where o = adj_blk · s2 + b2, m = max_j o and e = o − m, all taken row by row. Here: each input's
  staging buffer holds its block at every point (fetched there or carried over unchanged); the body's one store fills
  the whole output block, so the block afterwards is exactly the stored value; hence the body maps the region's
  invariant at a point to the invariant at the next, nothing carried between points.
-/
import proofs.«144608_g13657996001618_cont_week2b_1100_2_alg».proof.Proof.IdealLogitsDefs
import proofs.«144608_g13657996001618_cont_week2b_1100_2_alg».proof.Proof.Gen.KernelIdeal.Launch
import proofs.«144608_g13657996001618_cont_week2b_1100_2_alg».proof.Proof.Gen.KernelIdeal.Skeleton
import proofs.«144608_g13657996001618_cont_week2b_1100_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Logits

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers at a point -/

/-- The whole hidden product's buffer (window 0) holds its block at every point, fetched there or not: where the
    pipeline did not fetch, the block index has not moved and the body left the block in place. -/
theorem before1_0 (c : Dev nD) (t : Fin cfg1.N) (d) : (dat1 V c).before 0 t d = blk V c 0 t :=
  ((dat1 V c).before_in_eq_fetched 0 rfl (fun _ => rfl) (fun _ _ _ => rfl)
      (fun t => by rw [after1_0]; unfold Dat.blockOf blk; rw [A_eq1]; try rfl) t d).trans
    (by unfold Dat.fetched Dat.blockOf blk; rw [A_eq1]; try rfl)

/-- The bias row's buffer (window 1), likewise. -/
theorem before1_1 (c : Dev nD) (t : Fin cfg1.N) (d) : (dat1 V c).before 1 t d = blk V c 1 t :=
  ((dat1 V c).before_in_eq_fetched 1 rfl (fun _ => rfl) (fun _ _ _ => rfl)
      (fun t => by rw [after1_1]; unfold Dat.blockOf blk; rw [A_eq1]; try rfl) t d).trans
    (by unfold Dat.fetched Dat.blockOf blk; rw [A_eq1]; try rfl)

/-- The adjacency row block's buffer (window 2), likewise. -/
theorem before1_2 (c : Dev nD) (t : Fin cfg1.N) (d) : (dat1 V c).before 2 t d = blk V c 2 t :=
  ((dat1 V c).before_in_eq_fetched 2 rfl (fun _ => rfl) (fun _ _ _ => rfl)
      (fun t => by rw [after1_2]; unfold Dat.blockOf blk; rw [A_eq1]; try rfl) t d).trans
    (by unfold Dat.fetched Dat.blockOf blk; rw [A_eq1]; try rfl)

/-! ## The body's one store -/

/-- The offsets of every access of the body are zero. -/
theorem off_zero : (![0, 0] : Fin 2 → Nat) = fun _ => 0 := funext fun a => by fin_cases a <;> rfl

/-- The rectangle the body stores through: the whole 400×64 output block. -/
abbrev rOut : Rect S400x64 := Rect.unit (s := S400x64) ![0, 0] S400x64.size inb_S400x64_S400x64_0_0

/-- That one store covers the output block. -/
theorem cover_out (p : Vec F S400x64 .f32) (y : S400x64.Idx) :
    ∃ pc ∈ ([⟨rOut, p⟩] : List (View.Piece (Elt F) S400x64 .f32)), y ∈ pc.1.set :=
  ⟨_, List.mem_singleton_self _, View.mem_set_unit_zero off_zero inb_S400x64_S400x64_0_0 y⟩

/-! ## The body's triple -/

set_option maxHeartbeats 1000000 in
/-- The body on whole staging memrefs — the three inputs' at read contents `x1` (hidden product), `x2` (bias row),
    `x3` (adjacency rows), the output's at anything — runs to the continuation holding the inputs as they were and the
    output at the log-softmax payload of the three. -/
theorem sound_kernel1 (c : Dev nD) (E : Set ℕ) (i : grid1.Coords)
    (arg1 : Memref sig .tc .vmem S10000x64 .f32) (harg1 : arg1.IsWhole)
    (arg2 : Memref sig .tc .vmem S1x64 .f32) (harg2 : arg2.IsWhole)
    (arg3 : Memref sig .tc .vmem S400x10000 .f32) (harg3 : arg3.IsWhole)
    (arg4 : Memref sig .tc .vmem S400x64 .f32) (harg4 : arg4.IsWhole)
    (x1 : Vec F S10000x64 .f32) (x2 : Vec F S1x64 .f32) (x3 : Vec F S400x10000 .f32) (K : PUnit → sProp 𝕄) :
    iprop(owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg1 fullShare x1 ∗ owns (c : Thread nD τ) arg2 fullShare x2
            ∗ owns (c : Thread nD τ) arg3 fullShare x3
            ∗ owns (c : Thread nD τ) arg4 fullShare (k1_pay1 x3 x1 x2)) -∗ K ⟨⟩))
      ⊢ wp frame (wpE (defs₀ (F := F)) Variants.none c none) E
          (cc1__gc2_body i arg1 harg1 arg2 harg2 arg3 harg3 arg4 harg4) K := by
  simp only [cc1__gc2_body_eq_skeleton]; unfold cc1__gc2_body_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover_out _)).trans ?_
  rw [View.canon_unit_zero off_zero]
  simp only [View.readAt_eq_ld, View.ld_unit_zero (S := S400x10000) off_zero,
    View.ld_unit_zero (S := S10000x64) off_zero, View.ld_unit_zero (S := S1x64) off_zero]

/-! ## The body obligation, at a generic point -/

/-- What the body is called with at point `t`: the invariant, the core's dues, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Logits

end
-- ==== Proof.IdealEntry.lean ====
/-
  What the buffers hold when each kernel region is entered, and what each region leaves.

  The first region is entered after the two host reshapes of the biases; it leaves its write-backs folded into the
  buffer of the second layer's support. The second region is entered with that buffer so updated and every other buffer
  as the first region found it; it leaves its write-backs folded into the result's buffer.
-/
import proofs.«144608_g13657996001618_cont_week2b_1100_2_alg».proof.Proof.IdealHiddenDefs
import proofs.«144608_g13657996001618_cont_week2b_1100_2_alg».proof.Proof.IdealLogitsDefs
import proofs.«144608_g13657996001618_cont_week2b_1100_2_alg».proof.Proof.Gen.KernelIdeal.Regions

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The buffers when the first region is entered: the launch contents after the two host reshapes. -/
abbrev Va : (c : Dev nD) → (b : Ref sig .tc) → Buf (Elt F) ((c : Thread nD τ).loc b) := fun c b => Gen.V1 m c b

/-- What the first region leaves in the buffer of the second layer's support: its 25 write-backs folded. -/
def s2arr (c : Dev nD) : Buf (Elt F) ((c : Thread nD τ).loc main_call0_v2) := (Hidden.dat0 (Va m) c).arrAt 5 cfg0.N

/-- The buffers when the second region is entered: as the first found them, but for the support's buffer. -/
abbrev Vb : (c : Dev nD) → (b : Ref sig .tc) → Buf (Elt F) ((c : Thread nD τ).loc b) :=
  fun c b => Function.update (Gen.V1 m c) main_call0_v2 (s2arr m c) b

/-- What the second region leaves in the result's buffer: its 25 write-backs folded. -/
def outArr (c : Dev nD) : Buf (Elt F) ((c : Thread nD τ).loc main_v0) := (Logits.dat1 (Vb m) c).arrAt 3 cfg1.N

open Classical in
/-- What the two regions leave, as the unknowns the run's valuations are written over: the support's buffer and the
    result's buffer at what the regions leave there, anything else as the first region found it. -/
def outs : Gen.Outs (F := F) := fun _ r c =>
  if h2 : r = main_call0_v2 then h2 ▸ s2arr m c
  else if h3 : r = main_v0 then h3 ▸ outArr m c
  else Gen.V1 m c r

theorem outs_support (j : ℕ) (c : Dev nD) : outs m j main_call0_v2 c = s2arr m c := by
  unfold outs; rw [dif_pos rfl]

theorem outs_result (j : ℕ) (c : Dev nD) : outs m j main_v0 c = outArr m c := by
  unfold outs; rw [dif_neg (by decide), dif_pos rfl]

/-- The second region's entry contents are the generated valuation after the first region, at these unknowns. -/
theorem Vb_eq (c : Dev nD) (b : Ref sig .tc) : Vb m c b = Gen.V2 m (outs m) c b := by
  show Function.update (Gen.V1 m c) main_call0_v2 (s2arr m c) b = Function.update (Gen.V1 m c) main_call0_v2 (outs m 2 main_call0_v2 c) b
  rw [outs_support]

end Cert.KernelIdeal.Entry

end
-- ==== Proof.IdealRun.lean ====
/-
  The run of the whole program: two host reshapes, then the two kernel regions in turn.

  Between two items the core holds every unscoped buffer at a named valuation: the launch contents, then after the
  reshapes, then with the support's buffer at what the first region leaves, then with the result's buffer at what the
  second region leaves. Each region is entered from the valuation before it and left at the one after it; its arrays are
  split out of the unscoped buffers on entry and put back on exit, the generator register rides through the region's
  invariant, and nothing is owed at any point. The frame follows: no item writes an argument. The two regions' body obligations, and the first region's
  invariant at its two ends, are taken as hypotheses here and supplied where the claim is assembled.
-/
import proofs.«144608_g13657996001618_cont_week2b_1100_2_alg».proof.Proof.IdealEntry
import proofs.«144608_g13657996001618_cont_week2b_1100_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both regions, and what rides beside the buffers -/

/-- Both regions' proof data: the first region's at the contents after the reshapes, the second's at those contents
    with the support's buffer at what the first region leaves. -/
def pdats : (p : Fin 2) → (c : Dev nD) → Dat τ (Elt F) Unit ℕ (UR sig nD τ) ℕ (Pipeline.pin (pcfgs (F := F)) adm p) c
  | ⟨0, _⟩ => fun c => Hidden.dat0 (Entry.Va m) c
  | ⟨1, _⟩ => fun c => Logits.dat1 (Entry.Vb m) c

/-- No pair of cores is assigned a level: no core owes another anything. -/
abbrev L : GSem nD τ sig → Finset Unit := fun _ => ∅
abbrev lv : GSem nD τ sig → Unit → ℕ := fun _ _ => 0

/-- Beside the buffers, between any two items: the generator register at some state, and the core owing nothing. -/
abbrev Rest (c : Dev nD) : sProp 𝕄 :=
  iprop((∃ r, prngReg c r) ∗ ∃ W, owes (c : Thread nD τ) (0 : CellTallies nD τ sig Unit) W)

/-- The same rest at each of the three boundaries after the launch. -/
abbrev E : Fin 3 → Dev nD → sProp 𝕄 := fun _ c => Rest (F := F) c

/-! ## What each region leaves in the unscoped buffers -/

/-- Every array of the first region ends at what the valuation after it says: an input's array is never written and
    the valuation keeps it; the output's array is the support's buffer, which the valuation updates to the folded
    write-backs. -/
theorem exit0 (c : Dev nD) : ∀ w : Fin cfg0.W,
    (pdats m 0 c).arrAt w cfg0.N = Gen.V2 m (Entry.outs m) c (Pipeline.arrRef spec0 w)
  | ⟨0, _⟩ => ((Hidden.dat0 (Entry.Va m) c).arrAt_in 0 rfl _).trans
      ((Hidden.A_eq0 (Entry.Va m) c 0).trans (Gen.V2_of m (Entry.outs m) c (Pipeline.arrRef spec0 0) (by decide)).symm)
  | ⟨1, _⟩ => ((Hidden.dat0 (Entry.Va m) c).arrAt_in 1 rfl _).trans
      ((Hidden.A_eq0 (Entry.Va m) c 1).trans (Gen.V2_of m (Entry.outs m) c (Pipeline.arrRef spec0 1) (by decide)).symm)
  | ⟨2, _⟩ => ((Hidden.dat0 (Entry.Va m) c).arrAt_in 2 rfl _).trans
      ((Hidden.A_eq0 (Entry.Va m) c 2).trans (Gen.V2_of m (Entry.outs m) c (Pipeline.arrRef spec0 2) (by decide)).symm)
  | ⟨3, _⟩ => ((Hidden.dat0 (Entry.Va m) c).arrAt_in 3 rfl _).trans
      ((Hidden.A_eq0 (Entry.Va m) c 3).trans (Gen.V2_of m (Entry.outs m) c (Pipeline.arrRef spec0 3) (by decide)).symm)
  | ⟨4, _⟩ => ((Hidden.dat0 (Entry.Va m) c).arrAt_in 4 rfl _).trans
      ((Hidden.A_eq0 (Entry.Va m) c 4).trans (Gen.V2_of m (Entry.outs m) c (Pipeline.arrRef spec0 4) (by decide)).symm)
  | ⟨5, _⟩ => by
      show Entry.s2arr m c = Function.update (Gen.V1 m c) main_call0_v2 (Entry.outs m 2 main_call0_v2 c) main_call0_v2
      rw [Function.update_self, Entry.outs_support]

/-- Off the first region's arrays the valuation after it is the one before it: only the support's buffer changes. -/
theorem off0 (c : Dev nD) (b : Ref sig .tc) (hb : b ∉ Finset.univ.image (Pipeline.arrRef spec0)) :
    Gen.V2 m (Entry.outs m) c b = Entry.Va m c b :=
  Gen.V2_of m (Entry.outs m) c b fun h =>
    hb (Finset.mem_image.mpr ⟨5, Finset.mem_univ _, (List.mem_singleton.mp h).symm⟩)

/-- Every array of the second region ends at what the last valuation says: the inputs' arrays (the support's buffer
    among them, as the first region left it) are kept; the output's array is the result's buffer, updated to the
    folded write-backs. -/
theorem exit1 (c : Dev nD) : ∀ w : Fin cfg1.W,
    (pdats m 1 c).arrAt w cfg1.N = Gen.V3 m (Entry.outs m) c (Pipeline.arrRef spec1 w)
  | ⟨0, _⟩ => ((Logits.dat1 (Entry.Vb m) c).arrAt_in 0 rfl _).trans
      ((Logits.A_eq1 (Entry.Vb m) c 0).trans ((Entry.Vb_eq m c (Pipeline.arrRef spec1 0)).trans
        (Gen.V3_of m (Entry.outs m) c (Pipeline.arrRef spec1 0) (by decide)).symm))
  | ⟨1, _⟩ => ((Logits.dat1 (Entry.Vb m) c).arrAt_in 1 rfl _).trans
      ((Logits.A_eq1 (Entry.Vb m) c 1).trans ((Entry.Vb_eq m c (Pipeline.arrRef spec1 1)).trans
        (Gen.V3_of m (Entry.outs m) c (Pipeline.arrRef spec1 1) (by decide)).symm))
  | ⟨2, _⟩ => ((Logits.dat1 (Entry.Vb m) c).arrAt_in 2 rfl _).trans
      ((Logits.A_eq1 (Entry.Vb m) c 2).trans ((Entry.Vb_eq m c (Pipeline.arrRef spec1 2)).trans
        (Gen.V3_of m (Entry.outs m) c (Pipeline.arrRef spec1 2) (by decide)).symm))
  | ⟨3, _⟩ => by
      show Entry.outArr m c = Function.update (Gen.V2 m (Entry.outs m) c) main_v0 (Entry.outs m 3 main_v0 c) main_v0
      rw [Function.update_self, Entry.outs_result]

/-- Off the second region's arrays the last valuation is the one the region was entered from: only the result's
    buffer changes. -/
theorem off1 (c : Dev nD) (b : Ref sig .tc) (hb : b ∉ Finset.univ.image (Pipeline.arrRef spec1)) :
    Gen.V3 m (Entry.outs m) c b = Entry.Vb m c b :=
  (Gen.V3_of m (Entry.outs m) c b fun h =>
    hb (Finset.mem_image.mpr ⟨3, Finset.mem_univ _, (List.mem_singleton.mp h).symm⟩)).trans (Entry.Vb_eq m c b).symm

/-- The second region is entered from the valuation the first region left: every unscoped buffer held at it is the
    core's unscoped buffers at the second region's entry contents. -/
theorem held_entry1 (c : Dev nD) :
    (StableHlo.held (c : Thread nD τ) (Pipeline.ucRefs τ sig) (Gen.V2 m (Entry.outs m) c) : sProp 𝕄)
      = unscopedBufs c (Entry.Vb m c) := by
  rw [← Pipeline.unscopedBufs_held c (Gen.V2 m (Entry.outs m) c)]
  exact congrArg _ (funext fun b => (Entry.Vb_eq m c b).symm)

/-! ## The launch's part -/

/-- The launch's ghost element is the staging cells' initial one, and no core keeps a ghost resource of its own. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by
      rw [BI.bigSep_emp_const])
    iempintro

/-- From what the launch deals a core — its generator register at the launch state and its dues, none — the rest
    beside the buffers: the register at some state, nothing owed. -/
theorem rest_init :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]
  · iexists _; iexact Hp
  · iexists ∅; iexact HO

/-- The rest ends owing nothing: the register is let go. -/
theorem rest_owes (c : Dev nD) :
    E (F := F) 2 c ⊢ (iprop(∃ W, owes (c : Thread nD τ) (0 : CellTallies nD τ sig Unit) W) : sProp 𝕄) := by
  iintro ⟨-, HO⟩
  iexact HO

/-! ## The two regions as segments of the run -/

section Records

variable (hb0 : ∀ c : Dev nD, BodyObligation (Hidden.dat0 (F := F) (Entry.Va m) c) (defs₀ (F := F)) Variants.none () Set.univ)
  (hi0 : ∀ c : Dev nD, Pipeline.ΦA spec0 c ⊢ (Hidden.dat0 (Entry.Va m) c).Φ 0)
  (ho0 : ∀ c : Dev nD, (Hidden.dat0 (Entry.Va m) c).Φ (Fin.last cfg0.N) ⊢ Pipeline.ΦA spec0 c)
  (hb1 : ∀ c : Dev nD, BodyObligation (Logits.dat1 (F := F) (Entry.Vb m) c) (defs₀ (F := F)) Variants.none () Set.univ)

-- a library lemma stated over the pinned configuration of a pipeline meets the printed configuration only when
-- unification may unfold plain definitions in a metavariable's type
set_option backward.isDefEq.respectTransparency.types false in
/-- The first region, entered from every unscoped buffer at the contents after the reshapes and left with the
    support's buffer at the folded write-backs. On entry its six arrays are split out of the unscoped buffers and the
    other four bypass the region; the generator register and the scoped buffers that are no staging buffer make the
    plain invariant, from which the region's own invariant before the first point follows; after the last point the
    region's invariant gives the plain one back, and the arrays rejoin the bypassed buffers at the updated valuation. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (Entry.outs m) c) ∗ Rest c)
  X c := iprop(∃ r, prngReg c r)
  Y c := iprop(∃ r, prngReg c r)
  Z c := Pipeline.unscopedRest (Ix := Unit) (Name := ℕ) (U := UR sig nD τ) (Lvl := ℕ) spec0 c (Entry.Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Entry.Va m c) fun w => Hidden.A_eq0 (Entry.Va m) c w
    rw [Pipeline.unscopedBufs_held c (Gen.V1 m c)] at hsplit
    iintro ⟨⟨Hbufs, Hreg, Howes⟩, -, -⟩
    ihave H := hsplit $$ Hbufs
    icases H with ⟨Harr, Hoff⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hoff
  hin c := by
    refine BIBase.Entails.trans ?_ (hi0 c)
    unfold Pipeline.ΦA
    iintro ⟨Hreg, -, Hscoped⟩
    isplitl [Hscoped]; · iexact Hscoped
    iexact Hreg
  hout c := by
    rw [Pipeline.ownSems0_none]
    refine BIBase.Entails.trans (ho0 c) ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Entry.Va m c) (fun b => Gen.V2 m (Entry.outs m) c b) ((pdats m 0 c).arrAt · cfg0.N) (exit0 m c) (off0 m c)
    rw [Pipeline.unscopedBufs_held c (Gen.V2 m (Entry.outs m) c)] at hjoin
    iintro ⟨Harr, Howes, Hreg, Hoff⟩
    imodintro
    isplitl [Harr Hoff]
    · iapply hjoin
      isplitl [Harr] <;> iassumption
    isplitl [Hreg]; · iexact Hreg
    unfold Pipeline.Dat.owesAt Pipeline.owesWithin
    icases Howes with ⟨%W, -, Howes⟩
    iexists W
    iexact Howes

set_option backward.isDefEq.respectTransparency.types false in
/-- The second region, entered from the valuation the first region left and left with the result's buffer at the
    folded write-backs. Its four arrays (the support's buffer among them) are split out of the unscoped buffers and the
    other six bypass it; its invariant is the plain one at every point, so the generator register and the scoped
    buffers that are no staging buffer go in and come back as they are. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (Gen.V2 m (Entry.outs m) c) ∗ Rest c)
  post c := iprop(StableHlo.held (c : Thread nD τ) (Pipeline.ucRefs τ sig) (Gen.V3 m (Entry.outs m) c) ∗ Rest c)
  X c := iprop(∃ r, prngReg c r)
  Y c := iprop(∃ r, prngReg c r)
  Z c := Pipeline.unscopedRest (Ix := Unit) (Name := ℕ) (U := UR sig nD τ) (Lvl := ℕ) spec1 c (Entry.Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Entry.Vb m c) fun w => Logits.A_eq1 (Entry.Vb m) c w
    rw [← held_entry1 m c] at hsplit
    iintro ⟨⟨Hbufs, Hreg, Howes⟩, -, -⟩
    ihave H := hsplit $$ Hbufs
    icases H with ⟨Harr, Hoff⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hoff
  hin c := by
    rw [show (pdats m 1 c).Φ 0 = Pipeline.ΦA spec1 c from rfl]
    unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Entry.Vb m c) (fun b => Gen.V3 m (Entry.outs m) c b) ((pdats m 1 c).arrAt · cfg1.N) (exit1 m c) (off1 m c)
    rw [Pipeline.unscopedBufs_held c (Gen.V3 m (Entry.outs m) c)] at hjoin
    iintro ⟨Harr, Howes, Hreg, Hoff⟩
    imodintro
    isplitl [Harr Hoff]
    · iapply hjoin
      isplitl [Harr] <;> iassumption
    isplitl [Hreg]; · iexact Hreg
    unfold Pipeline.Dat.owesAt Pipeline.owesWithin
    icases Howes with ⟨%W, -, Howes⟩
    iexists W
    iexact Howes

end Records

/-! ## The frame -/

set_option backward.isDefEq.respectTransparency.types false in
/-- Every weakly fair execution of the program terminates, nothing faulting, with every argument array as launched. -/
theorem frame
    (hb0 : ∀ c : Dev nD, BodyObligation (Hidden.dat0 (F := F) (Entry.Va m) c) (defs₀ (F := F)) Variants.none () Set.univ)
    (hi0 : ∀ c : Dev nD, Pipeline.ΦA spec0 c ⊢ (Hidden.dat0 (Entry.Va m) c).Φ 0)
    (ho0 : ∀ c : Dev nD, (Hidden.dat0 (Entry.Va m) c).Φ (Fin.last cfg0.N) ⊢ Pipeline.ΦA spec0 c)
    (hb1 : ∀ c : Dev nD, BodyObligation (Logits.dat1 (F := F) (Entry.Vb m) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond (m := m) emb₁ () Variants.none L lv (fun _ _ => rfl) ρ (Entry.outs m) (pdats m)
    (O₀ := 0) (G := fun _ => iprop(emp))
    (u₀ := initOf (Pipeline.cells cfgs cellOf_inj) (Pipeline.launchToks cfgs cellOf_inj))
    (hu₀ := launch_elem) (E := E) (hE0 := rest_init ρ) (hE2 := rest_owes)
    (R0 := reg0 m hb0 hi0 ho0) (hpre0 := fun _ => .rfl) (hpost0 := fun _ => .rfl)
    (R1 := reg1 m hb1) (hpre1 := fun _ => .rfl) (hpost1 := fun _ => .rfl)

end Cert.KernelIdeal.Run

end
-- ==== Proof.IdealRunValue.lean ====
/-
  The run of the whole program with the result named: the result's buffer ends at what the second region leaves in it,
  read off the last valuation beside the arguments.
-/
import proofs.«144608_g13657996001618_cont_week2b_1100_2_alg».proof.Proof.IdealRun
import proofs.«144608_g13657996001618_cont_week2b_1100_2_alg».proof.Proof.IdealValueCond

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last valuation has the result's buffer at what the second region leaves in it. -/
theorem last_result (c : Dev nD) : Gen.V3 m (Entry.outs m) c main_v0 = Entry.outArr m c := by
  show Function.update (Gen.V2 m (Entry.outs m) c) main_v0 (Entry.outs m 3 main_v0 c) main_v0 = Entry.outArr m c
  rw [Function.update_self, Entry.outs_result]

set_option backward.isDefEq.respectTransparency.types false in
/-- The same run with the result named: the result's buffer ends at what the second region leaves in it. -/
theorem run_value
    (hb0 : ∀ c : Dev nD, BodyObligation (Hidden.dat0 (F := F) (Entry.Va m) c) (defs₀ (F := F)) Variants.none () Set.univ)
    (hi0 : ∀ c : Dev nD, Pipeline.ΦA spec0 c ⊢ (Hidden.dat0 (Entry.Va m) c).Φ 0)
    (ho0 : ∀ c : Dev nD, (Hidden.dat0 (Entry.Va m) c).Φ (Fin.last cfg0.N) ⊢ Pipeline.ΦA spec0 c)
    (hb1 : ∀ c : Dev nD, BodyObligation (Logits.dat1 (F := F) (Entry.Vb m) c) (defs₀ (F := F)) Variants.none () Set.univ) :
    θ_run defs (onTc (τ := τ) (main (F := F))) ⟨m, fun _ => 0, ρ⟩ (fun r => ∀ c : Dev nD,
      r.2.mem ((c.tc : Thread nD τ).loc main_v0) = Entry.outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨(hr c).1.trans (last_result m c), (hr c).2⟩)
    (GenP.value_cond (m := m) emb₁ () Variants.none L lv (fun _ _ => rfl) ρ (Entry.outs m) (pdats m)
      (O₀ := 0) (G := fun _ => iprop(emp))
      (u₀ := initOf (Pipeline.cells cfgs cellOf_inj) (Pipeline.launchToks cfgs cellOf_inj))
      (hu₀ := launch_elem) (E := E) (hE0 := rest_init ρ) (hE2 := rest_owes)
      (R0 := reg0 m hb0 hi0 ho0) (hpre0 := fun _ => .rfl) (hpost0 := fun _ => .rfl)
      (R1 := reg1 m hb1) (hpre1 := fun _ => .rfl) (hpost1 := fun _ => .rfl))

end Cert.KernelIdeal.Run

end
-- ==== Proof.Spec.lean ====
/-
  The function both programs compute, index by index, over the extended reals.

  With x (10000×128), the adjacency adj (10000×10000), W1 (128×128), b1 (128), W2 (128×64) and b2 (64):
    sup1 = x · W1,   hid = adj · sup1 + b1,   act h = h if h ≥ 0 else 0.2·h,   sup2 = act(hid) · W2,
    logit = adj · sup2 + b2,   and row by row   out = e − log Σ_j exp e   with   e = logit − max_j logit.
  Every product is the exact sum over the contracted index, the bias is added after the sum, the maximum of a row is the
  fold of max from −∞ over its 64 entries, and the literals are kept as their words (0, 0.2 as 0x3E4CCCCD, −∞).
  No law that needs finite entries is used anywhere: both programs group every sum and every difference the same way.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

variable (x : FVec Ideal ⟨2, ![10000, 128]⟩ .f32) (adj : FVec Ideal ⟨2, ![10000, 10000]⟩ .f32)
  (w1 : FVec Ideal ⟨2, ![128, 128]⟩ .f32) (b1 : FVec Ideal ⟨1, ![128]⟩ .f32)
  (w2 : FVec Ideal ⟨2, ![128, 64]⟩ .f32) (b2 : FVec Ideal ⟨1, ![64]⟩ .f32)

/-- x · W1 at (r, c). -/
def sup1 (r : Fin 10000) (c : Fin 128) : EReal := ∑ k : Fin 128, x (ix2 r k) * w1 (ix2 k c)

/-- adj · sup1 + b1 at (r, c): the sum first, then the bias. -/
def hid (r : Fin 10000) (c : Fin 128) : EReal := (∑ k : Fin 10000, adj (ix2 r k) * sup1 x w1 k c) + b1 (ix1 c)

/-- The leaky rectifier with slope 0.2 below zero: the comparison is "h ≥ 0" on the extended reals, the slope the
    word 0x3E4CCCCD, the product taken slope first. -/
def act (h : EReal) : EReal :=
  Scalar.select (Ideal.cmp .oge h (Ideal.ofBits .f32 0x00000000#32)) h (Ideal.ofBits .f32 0x3E4CCCCD#32 * h)

/-- act(hid) · W2 at (r, j). -/
def sup2 (r : Fin 10000) (j : Fin 64) : EReal := ∑ c : Fin 128, act (hid x adj w1 b1 r c) * w2 (ix2 c j)

/-- adj · sup2 + b2 at (r, j). -/
def logit (r : Fin 10000) (j : Fin 64) : EReal :=
  (∑ k : Fin 10000, adj (ix2 r k) * sup2 x adj w1 b1 w2 k j) + b2 (ix1 j)

/-- The maximum of row r of the logits: the fold of max from −∞ over its entries. -/
def rowMax (r : Fin 10000) : EReal :=
  (Finset.univ : Finset (Fin 64)).fold max (Ideal.ofBits .f32 0xFF800000#32) (fun j => logit x adj w1 b1 w2 b2 r j)

/-- The logits of row r less their maximum. -/
def shifted (r : Fin 10000) (j : Fin 64) : EReal := logit x adj w1 b1 w2 b2 r j - rowMax x adj w1 b1 w2 b2 r

/-- The log-softmax of row r at j. -/
def out (r : Fin 10000) (j : Fin 64) : EReal :=
  shifted x adj w1 b1 w2 b2 r j - Ideal.log (∑ j' : Fin 64, Ideal.exp (shifted x adj w1 b1 w2 b2 r j'))

/-- The second layer's support as an array. -/
def sup2Arr : FVec Ideal ⟨2, ![10000, 64]⟩ .f32 := fun i => sup2 x adj w1 b1 w2 (i 0) (i 1)

/-- The result as an array. -/
def G : FVec Ideal ⟨2, ![10000, 64]⟩ .f32 := fun i => out x adj w1 b1 w2 b2 (i 0) (i 1)

end Cert.Spec

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.HiddenPayload.lean ====
/-
  The two values the first region's body stores, read at one entry, over the extended reals.

  The value stored into the scratch is the plain product of its two operands: at (r, c) the sum over k of
  x0 (r, k) * x1 (k, c). The value stored into the output block is, at (p, j), the sum over c of
  act(h (p, c)) * x3 (c, j) with h (p, c) = (the sum over k of x4 (p, k) * s (k, c)) + x2 (0, c): the one bias row is
  read at every row p, the comparison and the slope are the specification's act, and each product accumulates into
  the zero splat, which adds nothing.
-/
import proofs.«144608_g13657996001618_cont_week2b_1100_2_alg».proof.Proof.Gen.KernelIdeal.Skeleton
import proofs.«144608_g13657996001618_cont_week2b_1100_2_alg».proof.Proof.Spec
import proofs.«144608_g13657996001618_cont_week2b_1100_2_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HiddenPayload

open Cert.KernelIdeal Cert.KernelIdeal.Gen
open Idealize.ShloMosaic Idealize.ShloMosaic.ValueIdx

/-- The three printed dimension records are the plain product's. -/
theorem rec_xw : dot_S10000x128_S128x128_S10000x128_1_0_0_1_n_n = DotDims.plain 10000 128 128 := rfl
theorem rec_as : dot_S400x10000_S10000x128_S400x128_1_0_0_1_n_n = DotDims.plain 400 10000 128 := rfl
theorem rec_hw : dot_S400x128_S128x64_S400x64_1_0_0_1_n_n = DotDims.plain 400 128 64 := rfl

set_option maxHeartbeats 40000 in
/-- The scratch's stored value at (r, c): row r of the first operand against column c of the second. -/
theorem scratch_apply (x0 : FVec Ideal S10000x128 .f32) (x1 : FVec Ideal S128x128 .f32) (r : Fin 10000) (c : Fin 128) :
    k0_pay1 (F := Ideal) x0 x1 (ix2 r c) = ∑ k : Fin 128, x0 (ix2 r k) * x1 (ix2 k c) := by
  unfold k0_pay1
  rw [shapeCast_self, rec_xw]
  exact Cert.Lib.PlainMatmul.matmul_zero_apply (φ₁ := .f32) (φ₂ := .f32) none x0 x1 r c

set_option maxHeartbeats 40000 in
/-- The leaky rectifier as the body spells it, on one extended real. -/
theorem act_eq (h : EReal) :
    Scalar.select (FloatOps.cmpf (F := Ideal) (φ := .f32) .oge h (Scalar.ofBits (F := Ideal) .f32 0x00000000#32)) h
      ((Scalar.ofBits (F := Ideal) .f32 0x3E4CCCCD#32 : Ideal .f32) * h) = Cert.Spec.act h := rfl

set_option maxHeartbeats 40000 in
/-- The output block's stored value at (p, j). -/
theorem block_apply (x4 : FVec Ideal S400x10000 .f32) (s : FVec Ideal S10000x128 .f32) (x2 : FVec Ideal S1x128 .f32)
    (x3 : FVec Ideal S128x64 .f32) (p : Fin 400) (j : Fin 64) :
    k0_pay2 (F := Ideal) x4 s x2 x3 (ix2 p j)
      = ∑ c : Fin 128, Cert.Spec.act ((∑ k : Fin 10000, x4 (ix2 p k) * s (ix2 k c)) + x2 (ix2 (0 : Fin 1) c)) * x3 (ix2 c j) := by
  unfold k0_pay2
  rw [rec_hw, rec_as]
  refine (Cert.Lib.PlainMatmul.matmul_zero_apply (φ₁ := .f32) (φ₂ := .f32) none _ x3 p j).trans ?_
  refine Finset.sum_congr rfl fun c _ => congrArg (fun z : EReal => z * x3 (ix2 c j)) ?_
  rw [select_apply, cmpf_apply, mulf_apply, addf_apply, broadcast_apply, broadcast_apply]
  have hA : matmul (DotDims.plain 400 10000 128) none x4 s (constant (F := Ideal) S400x128 .f32 0x00000000#32) (ix2 p c)
      = ∑ k : Fin 10000, x4 (ix2 p k) * s (ix2 k c) :=
    Cert.Lib.PlainMatmul.matmul_zero_apply (φ₁ := .f32) (φ₂ := .f32) none x4 s p c
  have hB : broadcastTo S400x128 (shapeCast S1x128 x2 shapeCasts_S1x128_S1x128) broadcasts_S1x128_S400x128 (ix2 p c)
      = x2 (ix2 (0 : Fin 1) c) :=
    (broadcastTo_1b_ab_apply (shapeCast S1x128 x2 shapeCasts_S1x128_S1x128) broadcasts_S1x128_S400x128 p c).trans
      (congrFun (shapeCast_self x2 shapeCasts_S1x128_S1x128) (ix2 (0 : Fin 1) c))
  rw [hA, hB]
  exact act_eq _

end Cert.KernelIdeal.HiddenPayload

end
-- ==== Proof.HiddenBlocks.lean ====
/-
  The first region's blocks read at an index.

  The grid has 25 points. The windows of x, W1, the bias row and W2 take the whole array at every point (block index
  (0, 0)), so such a block read at y is the array at y. The adjacency's window and the output's take 400 rows per
  point, block index (t, 0): the block of point t read at (p, k) is the array at (400 t + p, k). A block's coordinate in
  its array is always block index × block size + the coordinate inside the block. The 25 output blocks tile the 10000
  rows: row r lies in the block of point r / 400.
-/
import proofs.«144608_g13657996001618_cont_week2b_1100_2_alg».proof.Proof.IdealHiddenDefs
import Idealize.ShloMosaic.Lib.ValueIdx
import Idealize.ShloMosaic.Lib.Pipeline.Value

set_option maxRecDepth 16384

noncomputable section

namespace Cert.KernelIdeal.HiddenBlocks

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The printed index maps over the grid: the four whole-array windows sit at block (0, 0) at every point, the
    adjacency's and the output's at block (t, 0). -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

set_option maxHeartbeats 40000 in
/-- x's block at any point, read at y, is x at y. -/
theorem x_blk (c : Dev nD) (t : Fin cfg0.N) (y : S10000x128.Idx) :
    (Hidden.blk V c 0 t : Vec F S10000x128 .f32) y = (V c main_arg0 : S10000x128.Idx → Elt F .f32) y := by
  obtain ⟨e0, e1, -⟩ := index_facts t
  unfold Hidden.blk
  rw [View.read_apply]
  show V c main_arg0 _ = V c main_arg0 _
  congr 1
  funext a; apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

set_option maxHeartbeats 40000 in
/-- W1's block at any point, read at y, is W1 at y. -/
theorem w1_blk (c : Dev nD) (t : Fin cfg0.N) (y : S128x128.Idx) :
    (Hidden.blk V c 1 t : Vec F S128x128 .f32) y = (V c main_arg2 : S128x128.Idx → Elt F .f32) y := by
  obtain ⟨-, -, e0, e1, -⟩ := index_facts t
  unfold Hidden.blk
  rw [View.read_apply]
  show V c main_arg2 _ = V c main_arg2 _
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

set_option maxHeartbeats 40000 in
/-- The bias row's block at any point, read at y, is the reshaped bias at y. -/
theorem b1_blk (c : Dev nD) (t : Fin cfg0.N) (y : S1x128.Idx) :
    (Hidden.blk V c 2 t : Vec F S1x128 .f32) y = (V c main_call0_v0 : S1x128.Idx → Elt F .f32) y := by
  obtain ⟨-, -, -, -, e0, e1, -⟩ := index_facts t
  unfold Hidden.blk
  rw [View.read_apply]
  show V c main_call0_v0 _ = V c main_call0_v0 _
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

set_option maxHeartbeats 40000 in
/-- W2's block at any point, read at y, is W2 at y. -/
theorem w2_blk (c : Dev nD) (t : Fin cfg0.N) (y : S128x64.Idx) :
    (Hidden.blk V c 3 t : Vec F S128x64 .f32) y = (V c main_arg4 : S128x64.Idx → Elt F .f32) y := by
  obtain ⟨-, -, -, -, -, -, e0, e1, -⟩ := index_facts t
  unfold Hidden.blk
  rw [View.read_apply]
  show V c main_arg4 _ = V c main_arg4 _
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

set_option maxHeartbeats 40000 in
/-- The adjacency's block at point t, read at y, is the adjacency at row 400 t + y's row and y's column. -/
theorem adj_blk (c : Dev nD) (t : Fin cfg0.N) (y : S400x10000.Idx) (i : S10000x10000.Idx)
    (h0 : (i 0).val = 400 * t.val + (y 0).val) (h1 : (i 1).val = (y 1).val) :
    (Hidden.blk V c 4 t : Vec F S400x10000 .f32) y = (V c main_arg1 : S10000x10000.Idx → Elt F .f32) i := by
  obtain ⟨-, -, -, -, -, -, -, -, e0, e1, -⟩ := index_facts t
  unfold Hidden.blk
  rw [View.read_apply]
  show V c main_arg1 _ = V c main_arg1 _
  congr 1
  funext a; apply Fin.ext
  match a with
  | ⟨0, _⟩ => show win0_4.index t (0 : Fin 2) * 400 + 1 * (y 0).val = (i 0).val; rw [e0, h0]; omega
  | ⟨1, _⟩ => show win0_4.index t (1 : Fin 2) * 10000 + 1 * (y 1).val = (i 1).val; rw [e1, h1]; omega

set_option maxHeartbeats 40000 in
/-- A whole-array function read through the output's block at point t, at y, is the function at row 400 t + y's row
    and y's column. -/
theorem out_read (c : Dev nD) (t : Fin cfg0.N) (G : S10000x64.Idx → Elt F .f32) (y : S400x64.Idx) (i : S10000x64.Idx)
    (h0 : (i 0).val = 400 * t.val + (y 0).val) (h1 : (i 1).val = (y 1).val) :
    (((cfg0.win 5).blk t).view.read (Elt F) G : Vec F S400x64 .f32) y = G i := by
  obtain ⟨-, -, -, -, -, -, -, -, -, -, e0, e1⟩ := index_facts t
  rw [View.read_apply]
  show G _ = G _
  congr 1
  funext a; apply Fin.ext
  match a with
  | ⟨0, _⟩ => show win0_5.index t (0 : Fin 2) * 400 + 1 * (y 0).val = (i 0).val; rw [e0, h0]; omega
  | ⟨1, _⟩ => show win0_5.index t (1 : Fin 2) * 64 + 1 * (y 1).val = (i 1).val; rw [e1, h1]; omega

set_option maxHeartbeats 40000 in
/-- An index of the output's array is in point t's block iff each coordinate is in the block's range on its axis. -/
theorem mem_out_blk (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_call0_v2).slice (win0_5.rect t)).set ↔ _
  rw [View.set_slice_whole, Rect.mem_set_unit]
  exact Iff.rfl

set_option maxHeartbeats 40000 in
/-- The 25 output blocks tile the array: row r lies in the block of point r / 400, which is written back. -/
theorem out_cover (i : S10000x64.Idx) :
    ∃ t : Fin cfg0.N, (cfg0.win 5).flush t = true ∧ i ∈ ((cfg0.win 5).blk t).view.set := by
  have hi0 : (i 0).val < 10000 := (i 0).isLt
  have hi1 : (i 1).val < 64 := (i 1).isLt
  have hN : cfg0.N = 25 := N_0
  let t : Fin cfg0.N := ⟨(i 0).val / 400, by rw [hN]; omega⟩
  obtain ⟨-, -, -, -, -, -, -, -, -, -, e0, e1⟩ := index_facts t
  have ht : t.val = (i 0).val / 400 := rfl
  refine ⟨t, flush0_5 t, ?_⟩
  rw [mem_out_blk]
  intro a
  match a with
  | ⟨0, _⟩ => show win0_5.index t (0 : Fin 2) * 400 ≤ (i 0).val ∧ (i 0).val < win0_5.index t (0 : Fin 2) * 400 + 400; rw [e0, ht]; omega
  | ⟨1, _⟩ => show win0_5.index t (1 : Fin 2) * 64 ≤ (i 1).val ∧ (i 1).val < win0_5.index t (1 : Fin 2) * 64 + 64; rw [e1]; omega

end Cert.KernelIdeal.HiddenBlocks

end
-- ==== Proof.HiddenValue.lean ====
/-
  What the first region leaves in the support's buffer, over the extended reals: the second layer's support
  act(adj · (x · W1) + b1) · W2, entry by entry. The scratch holds x · W1 (the first point's product of the whole x and
  W1); at point t the stored block is rows 400t … 400t+399 of the support, since the staged adjacency block is those rows
  of adj and every other staged operand is a whole array; the 25 blocks tile the buffer, each written back once.

  The region is entered after the host's reshape of b1 to one row, so the staged bias row at (0, c) is b1 at c; no
  host operation writes an argument, so x, adj, W1 and W2 are entered as launched.
-/
import proofs.«144608_g13657996001618_cont_week2b_1100_2_alg».proof.Proof.IdealEntry
import proofs.«144608_g13657996001618_cont_week2b_1100_2_alg».proof.Proof.Spec
import proofs.«144608_g13657996001618_cont_week2b_1100_2_alg».proof.Proof.HiddenPayload
import proofs.«144608_g13657996001618_cont_week2b_1100_2_alg».proof.Proof.HiddenBlocks
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.HiddenValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The launch arrays the first region reads, at their literal types: x, adj, W1, b1, W2. -/
abbrev xArr (c : Dev nD) : FVec Ideal ⟨2, ![10000, 128]⟩ .f32 := m ((c.tc : Thread nD τ).loc main_arg0)
abbrev adjArr (c : Dev nD) : FVec Ideal ⟨2, ![10000, 10000]⟩ .f32 := m ((c.tc : Thread nD τ).loc main_arg1)
abbrev w1Arr (c : Dev nD) : FVec Ideal ⟨2, ![128, 128]⟩ .f32 := m ((c.tc : Thread nD τ).loc main_arg2)
abbrev b1Arr (c : Dev nD) : FVec Ideal ⟨1, ![128]⟩ .f32 := m ((c.tc : Thread nD τ).loc main_arg3)
abbrev w2Arr (c : Dev nD) : FVec Ideal ⟨2, ![128, 64]⟩ .f32 := m ((c.tc : Thread nD τ).loc main_arg4)

/-- The staged blocks at point t and the scratch's contents by name, at their literal types: the blocks of x and W1 the
    first point is handed, the bias row's, W2's and the adjacency's block at t, and what the scratch holds. -/
abbrev xBlk (c : Dev nD) : FVec Ideal S10000x128 .f32 := Hidden.blk (Entry.Va m) c 0 Hidden.t0
abbrev w1Blk (c : Dev nD) : FVec Ideal S128x128 .f32 := Hidden.blk (Entry.Va m) c 1 Hidden.t0
abbrev b1Blk (c : Dev nD) (t : Fin cfg0.N) : FVec Ideal S1x128 .f32 := Hidden.blk (Entry.Va m) c 2 t
abbrev w2Blk (c : Dev nD) (t : Fin cfg0.N) : FVec Ideal S128x64 .f32 := Hidden.blk (Entry.Va m) c 3 t
abbrev adjBlk (c : Dev nD) (t : Fin cfg0.N) : FVec Ideal S400x10000 .f32 := Hidden.blk (Entry.Va m) c 4 t
abbrev s1 (c : Dev nD) : FVec Ideal S10000x128 .f32 := Hidden.support (Entry.Va m) c

/-! ## What the region finds in the arrays it reads -/

/-- x is entered as launched. -/
theorem entry_x (c : Dev nD) (y : S10000x128.Idx) :
    (Entry.Va m c main_arg0 : S10000x128.Idx → EReal) y = xArr m c y :=
  congrFun (Gen.V1_of m c main_arg0 (by decide)) y

/-- adj is entered as launched. -/
theorem entry_adj (c : Dev nD) (y : S10000x10000.Idx) :
    (Entry.Va m c main_arg1 : S10000x10000.Idx → EReal) y = adjArr m c y :=
  congrFun (Gen.V1_of m c main_arg1 (by decide)) y

/-- W1 is entered as launched. -/
theorem entry_w1 (c : Dev nD) (y : S128x128.Idx) :
    (Entry.Va m c main_arg2 : S128x128.Idx → EReal) y = w1Arr m c y :=
  congrFun (Gen.V1_of m c main_arg2 (by decide)) y

/-- W2 is entered as launched. -/
theorem entry_w2 (c : Dev nD) (y : S128x64.Idx) :
    (Entry.Va m c main_arg4 : S128x64.Idx → EReal) y = w2Arr m c y :=
  congrFun (Gen.V1_of m c main_arg4 (by decide)) y

/-- The bias row is entered as the host's reshape of b1 to one row left it: at (0, q) it is b1 at q. -/
theorem entry_b1 (c : Dev nD) (q : Fin 128) :
    (Entry.Va m c main_call0_v0 : S1x128.Idx → EReal) (ix2 (0 : Fin 1) q) = b1Arr m c (ix1 q) := by
  have e : (Entry.Va m c main_call0_v0 : S1x128.Idx → EReal)
      = shapeCast S1x128 (b1Arr m c) shapeCasts_S128_S1x128 := by
    dsimp only [Entry.Va, Gen.V1, Gen.V0, Gen.hostOps0]
    after_results
    rfl
  exact (congrFun e (ix2 (0 : Fin 1) q)).trans (shapeCast_a_1a_apply (b1Arr m c) shapeCasts_S128_S1x128 (0 : Fin 1) q)

/-! ## The scratch and the stored block, entry by entry -/

/-- What the scratch holds, at (k, q): x · W1 there. -/
theorem support_apply (c : Dev nD) (k : Fin 10000) (q : Fin 128) :
    s1 m c (ix2 k q) = Cert.Spec.sup1 (xArr m c) (w1Arr m c) k q := by
  show Hidden.support (Entry.Va m) c (ix2 k q) = _
  unfold Hidden.support
  refine (HiddenPayload.scratch_apply (xBlk m c) (w1Blk m c) k q).trans ?_
  unfold Cert.Spec.sup1
  refine Finset.sum_congr rfl fun l _ => ?_
  have hx : xBlk m c (ix2 k l) = xArr m c (ix2 k l) :=
    (HiddenBlocks.x_blk (Entry.Va m) c Hidden.t0 (ix2 k l)).trans (entry_x m c (ix2 k l))
  have hw : w1Blk m c (ix2 l q) = w1Arr m c (ix2 l q) :=
    (HiddenBlocks.w1_blk (Entry.Va m) c Hidden.t0 (ix2 l q)).trans (entry_w1 m c (ix2 l q))
  exact congrArg₂ (fun a b : EReal => a * b) hx hw

/-- What point t stores into its output block, at (p, j): the specified support at row 400 t + p. -/
theorem point_apply (c : Dev nD) (t : Fin cfg0.N) (p : Fin 400) (j : Fin 64) (r : Fin 10000) (hr : r.val = 400 * t.val + p.val) :
    k0_pay2 (F := Ideal) (adjBlk m c t) (s1 m c) (b1Blk m c t) (w2Blk m c t) (ix2 p j)
      = Cert.Spec.sup2 (xArr m c) (adjArr m c) (w1Arr m c) (b1Arr m c) (w2Arr m c) r j := by
  refine (HiddenPayload.block_apply (adjBlk m c t) (s1 m c) (b1Blk m c t) (w2Blk m c t) p j).trans ?_
  unfold Cert.Spec.sup2 Cert.Spec.hid
  refine Finset.sum_congr rfl fun q _ => ?_
  have h4 : ∀ k : Fin 10000, adjBlk m c t (ix2 p k) = adjArr m c (ix2 r k) := fun k =>
    (HiddenBlocks.adj_blk (Entry.Va m) c t (ix2 p k) (ix2 r k) hr rfl).trans (entry_adj m c (ix2 r k))
  have hsum : (∑ k : Fin 10000, adjBlk m c t (ix2 p k) * s1 m c (ix2 k q))
      = ∑ k : Fin 10000, adjArr m c (ix2 r k) * Cert.Spec.sup1 (xArr m c) (w1Arr m c) k q :=
    Finset.sum_congr rfl fun k _ => congrArg₂ (fun a b : EReal => a * b) (h4 k) (support_apply m c k q)
  have h2 : b1Blk m c t (ix2 (0 : Fin 1) q) = b1Arr m c (ix1 q) :=
    (HiddenBlocks.b1_blk (Entry.Va m) c t (ix2 (0 : Fin 1) q)).trans (entry_b1 m c q)
  have h3 : w2Blk m c t (ix2 q j) = w2Arr m c (ix2 q j) :=
    (HiddenBlocks.w2_blk (Entry.Va m) c t (ix2 q j)).trans (entry_w2 m c (ix2 q j))
  rw [hsum, h2, h3]

/-! ## From blocks to the array -/

/-- What point t writes back is block t of the specified support. -/
theorem flushed_eq (c : Dev nD) (t : Fin cfg0.N) :
    (Hidden.dat0 (Entry.Va m) c).flushed 5 t
      = ((cfg0.win 5).blk t).view.read (Elt Ideal) (Cert.Spec.sup2Arr (xArr m c) (adjArr m c) (w1Arr m c) (b1Arr m c) (w2Arr m c)) := by
  show (cfg0.win 5).cut (grid0.coords t) ((Hidden.dat0 (Entry.Va m) c).after 5 t) = _
  rw [Hidden.after0_5]
  funext y
  obtain ⟨p, j, rfl⟩ : ∃ (p : Fin 400) (j : Fin 64), y = ix2 p j := ⟨y 0, y 1, eq_ix2 y⟩
  have hN : cfg0.N = 25 := N_0
  have htl : t.val < cfg0.N := t.isLt
  have hp : p.val < 400 := p.isLt
  obtain ⟨r, hr⟩ : ∃ r : Fin 10000, r.val = 400 * t.val + p.val := ⟨⟨400 * t.val + p.val, by omega⟩, rfl⟩
  refine (point_apply m c t p j r hr).trans ?_
  exact (HiddenBlocks.out_read (F := Ideal) c t (Cert.Spec.sup2Arr (xArr m c) (adjArr m c) (w1Arr m c) (b1Arr m c) (w2Arr m c)) (ix2 p j) (ix2 r j) hr rfl).symm

/-- The support's buffer after the first region is the specified support of the launch arguments. -/
theorem s2arr_eq (c : Dev nD) :
    Entry.s2arr (F := Ideal) m c = Cert.Spec.sup2Arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Entry.s2arr
  exact (Hidden.dat0 (Entry.Va m) c).arrAt_eq_of_cover 5 (Cert.Spec.sup2Arr (xArr m c) (adjArr m c) (w1Arr m c) (b1Arr m c) (w2Arr m c))
    (fun t _ => flushed_eq m c t) HiddenBlocks.out_cover

end Cert.KernelIdeal.HiddenValue

end
-- ==== Proof.LogitsRowwise.lean ====
/-
  The row-wise log-softmax of a matrix, read at one entry, over the extended reals.

  For o of a rows and b lanes: the row maximum m(p) is the fold of max from −∞ over the b entries of row p (the lane
  reduction inserts the lane coordinate k after the row coordinate p, so it ranges over o(p, k)); the maximum is kept as
  a column (a one-lane matrix), spread back over the lanes and subtracted; the exponentials of the shifted row are summed
  over its lanes; the logarithm of that sum, again a column spread over the lanes, is subtracted from the shifted entry:
      lsm o (p, j) = (o(p, j) − m(p)) − log Σ_k exp (o(p, k) − m(p)).
  First the two column casts read at an entry: the cast of a vector to a one-lane matrix reads the vector at the row,
  and the spread column reads the column's entry of the row.
-/
import Idealize.ShloMosaic.Lib.ValueIdx
import Idealize.ShloMosaic.Lib.Pipeline.Value
import Idealize.ShloMosaic.PureOps.Ideal.Laws

noncomputable section

namespace Cert.Lib.RowSoftmax

open Idealize.ShloMosaic Idealize.ShloMosaic.ValueIdx

/-! ## A column: one value per row, kept as a unit axis and spread over the lanes -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions at a row -/

variable {a b : ℕ}

/-- The lane reduction's inserted index: row p, lane k. -/
theorem lift_eq (h : (⟨2, ![a, b]⟩ : Shape).Reduces [1] ⟨1, ![a]⟩) (p : Fin a) (k : Fin b) : h.lift (ix1 p) k = ix2 p k :=
  funext fun ax => Fin.ext (by
    match ax with
    | ⟨0, _⟩ => rfl
    | ⟨1, _⟩ => rfl)

/-- The maximum of row p: the fold of max from −∞ over its entries. -/
def rowMax (o : FVec Ideal ⟨2, ![a, b]⟩ .f32) (p : Fin a) : EReal :=
  (Finset.univ : Finset (Fin b)).fold max (Ideal.ofBits .f32 0xFF800000#32) (fun j => o (ix2 p j))

/-- The lane maximum at row p is the row's maximum. -/
theorem laneMax_apply (o : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ o 0xFF800000#32 h hφ hacc (ix1 p) = rowMax o p := by
  refine (Ideal.multiReduction_maximumf_single o 0xFF800000#32 h hφ hacc (ix1 p)).trans ?_
  show (Finset.univ : Finset (Fin b)).fold max (Ideal.ofBits .f32 0xFF800000#32) (fun k => o (h.lift (ix1 p) k)) = _
  unfold rowMax
  exact Finset.fold_congr fun k _ => congrArg o (lift_eq h p k)

/-- The lane sum at row p is the sum over the row's entries. -/
theorem laneSum_apply (e : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ e 0x00000000#32 h hφ hacc (ix1 p) = ∑ k : Fin b, e (ix2 p k) := by
  refine (Ideal.multiReduction_add_single e 0x00000000#32 h hφ hacc (ix1 p)).trans ?_
  show ∑ k : Fin b, e (h.lift (ix1 p) k) = _
  exact Finset.sum_congr rfl fun k _ => congrArg e (lift_eq h p k)

/-! ## The log-softmax, operation by operation -/

section Ops
variable (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩)

/-- The row maxima, kept as a column and spread over the lanes. -/
def maxCol (o : FVec Ideal ⟨2, ![a, b]⟩ .f32) : FVec Ideal ⟨2, ![a, b]⟩ .f32 :=
  broadcastTo ⟨2, ![a, b]⟩ (shapeCast ⟨2, ![a, 1]⟩ (multiReduction (F := Ideal) .maximumf [1] ⟨1, ![a]⟩ o 0xFF800000#32 hr (.inl rfl) rfl) hc) hb

theorem maxCol_apply (o : FVec Ideal ⟨2, ![a, b]⟩ .f32) (p : Fin a) (j : Fin b) : maxCol hr hc hb o (ix2 p j) = rowMax o p := by
  unfold maxCol
  refine (broadcastTo_a1_ab_apply _ hb p j).trans ?_
  refine (shapeCast_a_a1_apply _ hc p 0).trans ?_
  exact laneMax_apply o hr (.inl rfl) rfl p

/-- Each entry less its row's maximum. -/
def shifted (o : FVec Ideal ⟨2, ![a, b]⟩ .f32) : FVec Ideal ⟨2, ![a, b]⟩ .f32 := subf o (maxCol hr hc hb o)

theorem shifted_apply (o : FVec Ideal ⟨2, ![a, b]⟩ .f32) (p : Fin a) (j : Fin b) :
    shifted hr hc hb o (ix2 p j) = o (ix2 p j) - rowMax o p := by
  unfold shifted
  rw [subf_apply, maxCol_apply]

/-- The logarithm of each row's sum of exponentials, kept as a column and spread over the lanes. -/
def lseCol (e : FVec Ideal ⟨2, ![a, b]⟩ .f32) : FVec Ideal ⟨2, ![a, b]⟩ .f32 :=
  broadcastTo ⟨2, ![a, b]⟩ (Idealize.ShloMosaic.log (shapeCast ⟨2, ![a, 1]⟩ (multiReduction (F := Ideal) .add [1] ⟨1, ![a]⟩ (Idealize.ShloMosaic.exp e) 0x00000000#32 hr (.inl rfl) rfl) hc)) hb

theorem lseCol_apply (e : FVec Ideal ⟨2, ![a, b]⟩ .f32) (p : Fin a) (j : Fin b) :
    lseCol hr hc hb e (ix2 p j) = Ideal.log (∑ k : Fin b, Ideal.exp (e (ix2 p k))) := by
  unfold lseCol
  refine (broadcastTo_a1_ab_apply _ hb p j).trans ?_
  show Ideal.log (shapeCast ⟨2, ![a, 1]⟩ (multiReduction (F := Ideal) .add [1] ⟨1, ![a]⟩ (Idealize.ShloMosaic.exp e) 0x00000000#32 hr (.inl rfl) rfl) hc (ix2 p (0 : Fin 1))) = _
  refine congrArg Ideal.log ?_
  refine (shapeCast_a_a1_apply _ hc p 0).trans ?_
  refine (laneSum_apply (Idealize.ShloMosaic.exp e) hr (.inl rfl) rfl p).trans ?_
  rfl

/-- The row-wise log-softmax as the operations compute it. -/
def lsm (o : FVec Ideal ⟨2, ![a, b]⟩ .f32) : FVec Ideal ⟨2, ![a, b]⟩ .f32 :=
  subf (shifted hr hc hb o) (lseCol hr hc hb (shifted hr hc hb o))

/-- THE ENTRY: the shifted entry less the logarithm of the shifted row's sum of exponentials. -/
theorem lsm_apply (o : FVec Ideal ⟨2, ![a, b]⟩ .f32) (p : Fin a) (j : Fin b) :
    lsm hr hc hb o (ix2 p j)
      = (o (ix2 p j) - rowMax o p) - Ideal.log (∑ k : Fin b, Ideal.exp (o (ix2 p k) - rowMax o p)) := by
  unfold lsm
  rw [subf_apply, lseCol_apply, shifted_apply]
  simp only [shifted_apply]

end Ops

end Cert.Lib.RowSoftmax

end
-- ==== Proof.LogitsPayload.lean ====
/-
  One entry of the block the second region stores, over the extended reals, and the same entry of the specification.

  With a (400×10000) the adjacency rows of the block, s (10000×64) the support and b (1×64) the bias row, the stored
  block is the row-wise log-softmax of o = a · s + b. The product is the exact sum over the contracted index into the
  zero splat; the bias row is read at its row 0 for every row of the block. When the block's rows are rows
  400t … 400t+399 of the adjacency, s is the specified support and b is the bias vector as a one-row matrix, o(p, ·) is
  row 400t + p of the specified logits, so the stored entry (p, j) is the specified result at (400t + p, j): the row's
  maximum and its sum of exponentials range over the same 64 entries on both sides.
-/
import proofs.«144608_g13657996001618_cont_week2b_1100_2_alg».proof.Proof.Gen.KernelIdeal.Skeleton
import proofs.«144608_g13657996001618_cont_week2b_1100_2_alg».proof.Proof.LibPlainMatmul
import proofs.«144608_g13657996001618_cont_week2b_1100_2_alg».proof.Proof.LogitsRowwise
import proofs.«144608_g13657996001618_cont_week2b_1100_2_alg».proof.Proof.Spec
import Idealize.ShloMosaic.Lib.ValueLayout

set_option maxRecDepth 16384

noncomputable section

namespace Cert.KernelIdeal.LogitsPayload

open Cert.KernelIdeal Cert.KernelIdeal.Gen
open Idealize.ShloMosaic Idealize.ShloMosaic.ValueIdx
open Cert.Lib.RowSoftmax (rowMax lsm lsm_apply)

/-! ## The logits of the block -/

/-- Entry (p, j) of a · s + b. -/
def logitAt (a : FVec Ideal S400x10000 .f32) (s : FVec Ideal S10000x64 .f32) (b : FVec Ideal S1x64 .f32) (p : Fin 400) (j : Fin 64) : EReal :=
  (∑ k : Fin 10000, a (ix2 p k) * s (ix2 k j)) + b (ix2 (0 : Fin 1) j)

/-- The block of logits as the body computes it. -/
def logits (a : FVec Ideal S400x10000 .f32) (s : FVec Ideal S10000x64 .f32) (b : FVec Ideal S1x64 .f32) : FVec Ideal S400x64 .f32 :=
  addf (matmul dot_S400x10000_S10000x64_S400x64_1_0_0_1_n_n none a (shapeCast S10000x64 s shapeCasts_S10000x64_S10000x64) (constant (F := Ideal) S400x64 .f32 0x00000000#32))
    (broadcastTo S400x64 (shapeCast S1x64 b shapeCasts_S1x64_S1x64) broadcasts_S1x64_S400x64)

theorem logits_apply (a : FVec Ideal S400x10000 .f32) (s : FVec Ideal S10000x64 .f32) (b : FVec Ideal S1x64 .f32) (p : Fin 400) (j : Fin 64) :
    logits a s b (ix2 p j) = logitAt a s b p j := by
  unfold logits logitAt
  rw [addf_apply, shapeCast_self, shapeCast_self]
  refine congrArg₂ (· + ·) ?_ (broadcastTo_1b_ab_apply b broadcasts_S1x64_S400x64 p j)
  exact Cert.Lib.PlainMatmul.matmul_zero_apply (M := 400) (K := 10000) (N := 64) none a s p j

/-- The stored value is the row-wise log-softmax of the logits: the body's operations, regrouped. -/
theorem pay_eq (a : FVec Ideal S400x10000 .f32) (s : FVec Ideal S10000x64 .f32) (b : FVec Ideal S1x64 .f32) :
    k1_pay1 (F := Ideal) a s b = lsm reduces_S400x64_S400 shapeCasts_S400_S400x1 broadcasts_S400x1_S400x64 (logits a s b) := rfl

/-- The maximum of row p of the block's logits. -/
def rowMaxAt (a : FVec Ideal S400x10000 .f32) (s : FVec Ideal S10000x64 .f32) (b : FVec Ideal S1x64 .f32) (p : Fin 400) : EReal :=
  (Finset.univ : Finset (Fin 64)).fold max (Ideal.ofBits .f32 0xFF800000#32) (fun j => logitAt a s b p j)

/-- THE STORED ENTRY (p, j): the shifted logit less the logarithm of the shifted row's sum of exponentials. -/
theorem pay_apply (a : FVec Ideal S400x10000 .f32) (s : FVec Ideal S10000x64 .f32) (b : FVec Ideal S1x64 .f32) (p : Fin 400) (j : Fin 64) :
    k1_pay1 (F := Ideal) a s b (ix2 p j)
      = (logitAt a s b p j - rowMaxAt a s b p) - Ideal.log (∑ k : Fin 64, Ideal.exp (logitAt a s b p k - rowMaxAt a s b p)) := by
  have hm : rowMax (logits a s b) p = rowMaxAt a s b p := by
    unfold rowMax rowMaxAt
    exact Finset.fold_congr fun k _ => logits_apply a s b p k
  rw [pay_eq, lsm_apply, hm]
  simp only [logits_apply]

/-! ## Against the specification -/

section Spec
variable (x : FVec Ideal ⟨2, ![10000, 128]⟩ .f32) (adj : FVec Ideal ⟨2, ![10000, 10000]⟩ .f32)
  (w1 : FVec Ideal ⟨2, ![128, 128]⟩ .f32) (b1 : FVec Ideal ⟨1, ![128]⟩ .f32)
  (w2 : FVec Ideal ⟨2, ![128, 64]⟩ .f32) (b2 : FVec Ideal ⟨1, ![64]⟩ .f32)

/-- With the block's rows the adjacency's rows 400t + p, the support the specified one and the bias row the bias
    vector, the block's logits are the specified logits of those rows. -/
theorem logitAt_eq (a : FVec Ideal S400x10000 .f32) (s : FVec Ideal S10000x64 .f32) (b : FVec Ideal S1x64 .f32)
    (r : Fin 10000) (p : Fin 400)
    (ha : ∀ k : Fin 10000, a (ix2 p k) = adj (ix2 r k))
    (hs : ∀ (k : Fin 10000) (j : Fin 64), s (ix2 k j) = Cert.Spec.sup2 x adj w1 b1 w2 k j)
    (hb : ∀ j : Fin 64, b (ix2 (0 : Fin 1) j) = b2 (ix1 j)) (j : Fin 64) :
    logitAt a s b p j = Cert.Spec.logit x adj w1 b1 w2 b2 r j := by
  unfold logitAt Cert.Spec.logit
  rw [hb j]
  refine congrArg (· + b2 (ix1 j)) ?_
  exact Finset.sum_congr rfl fun k _ => by rw [ha k, hs k j]

/-- THE STORED ENTRY IS THE SPECIFIED RESULT at row 400t + p: read at block index y and array index i with
    i = (r, y 1), r the array row of block row y 0. -/
theorem pay_eq_out (a : FVec Ideal S400x10000 .f32) (s : FVec Ideal S10000x64 .f32) (b : FVec Ideal S1x64 .f32)
    (r : Fin 10000) (p : Fin 400) (j : Fin 64)
    (ha : ∀ k : Fin 10000, a (ix2 p k) = adj (ix2 r k))
    (hs : ∀ (k : Fin 10000) (j : Fin 64), s (ix2 k j) = Cert.Spec.sup2 x adj w1 b1 w2 k j)
    (hb : ∀ j : Fin 64, b (ix2 (0 : Fin 1) j) = b2 (ix1 j)) :
    k1_pay1 (F := Ideal) a s b (ix2 p j) = Cert.Spec.out x adj w1 b1 w2 b2 r j := by
  have hl : ∀ j' : Fin 64, logitAt a s b p j' = Cert.Spec.logit x adj w1 b1 w2 b2 r j' :=
    fun j' => logitAt_eq x adj w1 b1 w2 b2 a s b r p ha hs hb j'
  have hm : rowMaxAt a s b p = Cert.Spec.rowMax x adj w1 b1 w2 b2 r := by
    unfold rowMaxAt Cert.Spec.rowMax
    exact Finset.fold_congr fun k _ => hl k
  rw [pay_apply, hm]
  unfold Cert.Spec.out Cert.Spec.shifted
  simp only [hl]

end Spec

end Cert.KernelIdeal.LogitsPayload

end
-- ==== Proof.LogitsValue.lean ====
/-
  What the second region leaves in the result's buffer, over the extended reals, given that it is entered with the
  support's buffer at the specified support: the log-softmax of adj · support + b2, row by row. At point t the stored
  block is rows 400t … 400t+399 of the result; a row's maximum and its sum of exponentials range over the row's 64
  entries, all inside the block; the 25 blocks tile the buffer, each written back once.

  The region reads three arrays. The support's buffer is entered at the specified support (the hypothesis); the bias
  row is the host's reshape of the bias vector to one row, so its entry (0, j) is the vector's entry j; the adjacency is
  as launched. The support and the bias row are staged whole at every point (block index (0, 0)), the adjacency and
  the result in row blocks of 400 (block index (t, 0)): entry (p, k) of the adjacency's block at t is entry (400t + p, k)
  of the adjacency, and entry (p, j) of the result's block is entry (400t + p, j) of the result. Row r of the result is
  covered by point r / 400.
-/
import proofs.«144608_g13657996001618_cont_week2b_1100_2_alg».proof.Proof.IdealEntry
import proofs.«144608_g13657996001618_cont_week2b_1100_2_alg».proof.Proof.Spec
import proofs.«144608_g13657996001618_cont_week2b_1100_2_alg».proof.Proof.LogitsPayload
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.LogitsValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What the region finds in the arrays it reads -/

/-- The support's buffer is the one the region is entered with. -/
theorem entry_support (c : Dev nD) : Entry.Vb m c main_call0_v2 = Entry.s2arr m c :=
  Function.update_self ..

/-- The adjacency is as launched: neither the host reshapes nor the first region write it. -/
theorem entry_adj (c : Dev nD) : Entry.Vb m c main_arg1 = (m ((c.tc : Thread nD τ).loc main_arg1)) :=
  (Entry.Vb_eq m c main_arg1).trans ((Gen.V2_of m (Entry.outs m) c main_arg1 (by decide)).trans
    ((Gen.V1_of m c main_arg1 (by decide)).trans rfl))

/-- The bias row is the host's reshape of the bias vector to one row. -/
theorem entry_bias (c : Dev nD) :
    (Entry.Vb m c main_call0_v1 : S1x64.Idx → EReal) = shapeCast S1x64 ((m ((c.tc : Thread nD τ).loc main_arg5)) : S64.Idx → EReal) shapeCasts_S64_S1x64 := by
  refine ((Entry.Vb_eq m c main_call0_v1).trans (Gen.V2_of m (Entry.outs m) c main_call0_v1 (by decide))).trans ?_
  dsimp only [Gen.V1, Gen.V0, Gen.hostOps0]
  after_results
  rfl

/-! ## The printed index maps, decided over the grid -/

/-- The support and the bias row sit at block (0, 0) at every point; the adjacency and the result at block (t, 0). -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-! ## The three input blocks at a point -/

/-- The support's block at any point is the specified support. -/
theorem supBlk_eq (c : Dev nD) (hs : Entry.s2arr (F := Ideal) m c = Cert.Spec.sup2Arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (t : Fin cfg1.N) :
    (Logits.blk (Entry.Vb m) c 0 t : Vec Ideal S10000x64 .f32) = Cert.Spec.sup2Arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  obtain ⟨e0, e1, -, -, -, -, -, -⟩ := idx_facts t
  funext y
  unfold Logits.blk
  show Entry.Vb m c main_call0_v2 (((cfg1.win 0).blk t).view.emb y) = _
  rw [entry_support, hs]
  refine congrArg (Cert.Spec.sup2Arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ?_
  funext a
  apply Fin.ext
  match a with
  | ⟨0, _⟩ => show win1_0.index t (0 : Fin 2) * 10000 + 1 * (y 0).val = (y 0).val; omega
  | ⟨1, _⟩ => show win1_0.index t (1 : Fin 2) * 64 + 1 * (y 1).val = (y 1).val; omega

/-- The bias row's block at any point, at (0, j), is the bias vector at j. -/
theorem biasBlk_apply (c : Dev nD) (t : Fin cfg1.N) (j : Fin 64) :
    (Logits.blk (Entry.Vb m) c 1 t : Vec Ideal S1x64 .f32) (ix2 (0 : Fin 1) j) = ((m ((c.tc : Thread nD τ).loc main_arg5)) : S64.Idx → EReal) (ix1 j) := by
  obtain ⟨-, -, e2, e3, -, -, -, -⟩ := idx_facts t
  unfold Logits.blk
  show (Entry.Vb m c main_call0_v1 : S1x64.Idx → EReal) (((cfg1.win 1).blk t).view.emb (ix2 (0 : Fin 1) j)) = _
  rw [entry_bias]
  refine (congrArg (shapeCast S1x64 ((m ((c.tc : Thread nD τ).loc main_arg5)) : S64.Idx → EReal) shapeCasts_S64_S1x64) ?_).trans
    (shapeCast_a_1a_apply _ shapeCasts_S64_S1x64 (0 : Fin 1) j)
  funext a
  apply Fin.ext
  match a with
  | ⟨0, _⟩ => show win1_1.index t (0 : Fin 2) * 1 + 1 * 0 = 0; omega
  | ⟨1, _⟩ => show win1_1.index t (1 : Fin 2) * 64 + 1 * j.val = j.val; omega

/-- The adjacency's block at point t, at (p, k), is the adjacency at (400t + p, k). -/
theorem adjBlk_apply (c : Dev nD) (t : Fin cfg1.N) (p : Fin 400) (k : Fin 10000) (hr : 400 * t.val + p.val < 10000) :
    (Logits.blk (Entry.Vb m) c 2 t : Vec Ideal S400x10000 .f32) (ix2 p k)
      = ((m ((c.tc : Thread nD τ).loc main_arg1)) : S10000x10000.Idx → EReal) (ix2 (⟨400 * t.val + p.val, hr⟩ : Fin 10000) k) := by
  obtain ⟨-, -, -, -, e4, e5, -, -⟩ := idx_facts t
  unfold Logits.blk
  show Entry.Vb m c main_arg1 (((cfg1.win 2).blk t).view.emb (ix2 p k)) = _
  rw [entry_adj]
  refine congrArg ((m ((c.tc : Thread nD τ).loc main_arg1)) : S10000x10000.Idx → EReal) ?_
  funext a
  apply Fin.ext
  match a with
  | ⟨0, _⟩ => show win1_2.index t (0 : Fin 2) * 400 + 1 * p.val = 400 * t.val + p.val; omega
  | ⟨1, _⟩ => show win1_2.index t (1 : Fin 2) * 10000 + 1 * k.val = k.val; omega

/-! ## What a point writes back, and the whole buffer -/

/-- What point t writes back is block t of the specified result. -/
theorem flushed_eq (c : Dev nD) (hs : Entry.s2arr (F := Ideal) m c = Cert.Spec.sup2Arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (t : Fin cfg1.N) :
    (Logits.dat1 (Entry.Vb m) c).flushed 3 t = ((cfg1.win 3).blk t).view.read (Elt Ideal) (Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  obtain ⟨-, -, -, -, -, -, e6, e7⟩ := idx_facts t
  have hN : cfg1.N = 25 := Gen.N_1
  have ht : t.val < 25 := by have h := t.isLt; omega
  show (cfg1.win 3).cut (grid1.coords t) ((Logits.dat1 (Entry.Vb m) c).after 3 t) = _
  rw [Logits.after1_3]
  funext y
  have hy0 : (y 0).val < 400 := (y 0).isLt
  have hy1 : (y 1).val < 64 := (y 1).isLt
  have hr : 400 * t.val + (y 0).val < 10000 := by omega
  show k1_pay1 (F := Ideal) (Logits.blk (Entry.Vb m) c 2 t) (Logits.blk (Entry.Vb m) c 0 t) (Logits.blk (Entry.Vb m) c 1 t)
      ((cfg1.win 3).xinj (grid1.coords t) y) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg1.win 3).blk t).view.emb y)
  have hyx : ((cfg1.win 3).xinj (grid1.coords t) y : S400x64.Idx) = ix2 (⟨(y 0).val, hy0⟩ : Fin 400) (⟨(y 1).val, hy1⟩ : Fin 64) :=
    funext fun a => Fin.ext (by
      match a with
      | ⟨0, _⟩ => rfl
      | ⟨1, _⟩ => rfl)
  have hie : ((((cfg1.win 3).blk t).view.emb y : S10000x64.Idx))
      = ix2 (⟨400 * t.val + (y 0).val, hr⟩ : Fin 10000) (⟨(y 1).val, hy1⟩ : Fin 64) :=
    funext fun a => Fin.ext (by
      match a with
      | ⟨0, _⟩ => show win1_3.index t (0 : Fin 2) * 400 + 1 * (y 0).val = 400 * t.val + (y 0).val; omega
      | ⟨1, _⟩ => show win1_3.index t (1 : Fin 2) * 64 + 1 * (y 1).val = (y 1).val; omega)
  refine (congrArg (k1_pay1 (F := Ideal) (Logits.blk (Entry.Vb m) c 2 t) (Logits.blk (Entry.Vb m) c 0 t) (Logits.blk (Entry.Vb m) c 1 t)) hyx).trans ?_
  refine Eq.trans ?_ (congrArg (Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) hie).symm
  exact LogitsPayload.pay_eq_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (Logits.blk (Entry.Vb m) c 2 t) (Logits.blk (Entry.Vb m) c 0 t) (Logits.blk (Entry.Vb m) c 1 t)
    (⟨400 * t.val + (y 0).val, hr⟩ : Fin 10000) (⟨(y 0).val, hy0⟩ : Fin 400) (⟨(y 1).val, hy1⟩ : Fin 64)
    (fun k => adjBlk_apply m c t ⟨(y 0).val, hy0⟩ k hr)
    (fun k j => congrFun (supBlk_eq m c hs t) (ix2 k j))
    (fun j => biasBlk_apply m c t j)

/-- An index of the result is in point t's block iff each coordinate is in the block's range on its axis. -/
theorem mem_blk (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v0).slice (win1_3.rect t)).set ↔ _
  rw [View.set_slice_whole, Rect.mem_set_unit]
  exact Iff.rfl

/-- Every entry of the result is in some point's block: row r in the block of point r / 400. -/
theorem cover (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  have hq : (i 0).val / 400 < grid1.N := by rw [Gen.N_1]; omega
  obtain ⟨-, -, -, -, -, -, e6, e7⟩ := idx_facts ⟨(i 0).val / 400, hq⟩
  have e6' : win1_3.index ⟨(i 0).val / 400, hq⟩ (0 : Fin 2) = (i 0).val / 400 := e6
  refine ⟨⟨(i 0).val / 400, hq⟩, flush1_3 _, ?_⟩
  rw [mem_blk]
  intro a
  match a with
  | ⟨0, _⟩ =>
    show win1_3.index ⟨(i 0).val / 400, hq⟩ (0 : Fin 2) * 400 ≤ (i 0).val ∧ (i 0).val < win1_3.index ⟨(i 0).val / 400, hq⟩ (0 : Fin 2) * 400 + 400
    omega
  | ⟨1, _⟩ =>
    show win1_3.index ⟨(i 0).val / 400, hq⟩ (1 : Fin 2) * 64 ≤ (i 1).val ∧ (i 1).val < win1_3.index ⟨(i 0).val / 400, hq⟩ (1 : Fin 2) * 64 + 64
    omega

/-- The result's buffer after the second region is the specified function of the launch arguments, once the support's
    buffer is the specified support. -/
theorem outArr_eq_of (c : Dev nD)
    (hs : Entry.s2arr (F := Ideal) m c = Cert.Spec.sup2Arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    Entry.outArr (F := Ideal) m c = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Entry.outArr
  exact (Logits.dat1 (Entry.Vb m) c).arrAt_eq_of_cover 3 (Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (fun t _ => flushed_eq m c hs t) cover

end Cert.KernelIdeal.LogitsValue

end
-- ==== Proof.LibPlainDot.lean ====
/-
  The host's plain matrix product read at one entry, over the extended reals.

  On the host a `dot_general` with the dimension numbers of an `M×K` by `K×N` product (`DotDims.plain M K N`) is, over the
  extended reals, the same exact sum as a kernel's product into the zero accumulator: at row `r` and column `c` the entry
  `∑ k, lhs (r, k) * rhs (k, c)`. The contraction index is re-indexed by its one coordinate `k : Fin K`; the operand
  indices the dimension numbers compute are `(r, k)` and `(k, c)` (the four coordinate facts of the kernel-side file).
  Stated for every `M`, `K`, `N`, with the indices built by `ix2`.
-/
import Idealize.ShloMosaic.Lib.ValueIdx
import Idealize.ShloMosaic.PureOps.Ideal.Laws
import proofs.«144608_g13657996001618_cont_week2b_1100_2_alg».proof.Proof.LibPlainMatmul

noncomputable section

namespace Cert.Lib.PlainDot

open Idealize.ShloMosaic Idealize.ShloMosaic.ValueIdx Cert.Lib.PlainMatmul

variable {M K N : Nat}

/-- THE ENTRY of the host's product: at `(r, c)` the sum over `k` of `lhs (r, k) * rhs (k, c)`, whatever the operands'
    formats and the precision hint. -/
theorem dotGeneral_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainDot

end
-- ==== Proof.RefValue.lean ====
/-
  The reference's result is the specified function: read one operation at a time, each stage of the reference's run at
  an index is the matching line of the specification — the four products as exact sums over the contracted index, the
  biases added after the sums, the rectifier pointwise, the row maximum a fold of max from −∞ (the extra maximum with
  −∞ the reference takes is the identity), and the log-softmax row by row.
-/
import proofs.«144608_g13657996001618_cont_week2b_1100_2_alg».proof.Proof.RefRun
import proofs.«144608_g13657996001618_cont_week2b_1100_2_alg».proof.Proof.RefRead
import proofs.«144608_g13657996001618_cont_week2b_1100_2_alg».proof.Proof.Spec
import proofs.«144608_g13657996001618_cont_week2b_1100_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.ReferenceIdeal.RefValue

open Idealize.ShloMosaic Idealize.ShloMosaic.ValueIdx Idealize.ShloMosaic.TcCoe Idealize.SL.Sem
open Cert.ReferenceIdeal Cert.ReferenceIdeal.Gen
open Cert.ReferenceIdeal.ReadP

/-! ## The stages at an index

Each stage of the reference, read at explicit coordinates, is the matching line of the specification. The arrays are
arbitrary here; the launch arguments are put in at the end. -/

section Stages

variable (x : (⟨S10000x128, .f32⟩ : BufTy).Contents (Elt Ideal)) (adj : (⟨S10000x10000, .f32⟩ : BufTy).Contents (Elt Ideal))
  (w1 : (⟨S128x128, .f32⟩ : BufTy).Contents (Elt Ideal)) (b1 : (⟨S128, .f32⟩ : BufTy).Contents (Elt Ideal))
  (w2 : (⟨S128x64, .f32⟩ : BufTy).Contents (Elt Ideal)) (b2 : (⟨S64, .f32⟩ : BufTy).Contents (Elt Ideal))

/-- x · W1 at (r, c): the sum over the 128 contracted coordinates. -/
theorem sup1_at (r : Fin 10000) (c : Fin 128) :
    val_main_v0 (F := Ideal) x w1 (ix2 r c) = Cert.Spec.sup1 x w1 r c := by
  rw [val_main_v0_apply]
  unfold Cert.Spec.sup1
  refine Finset.sum_congr rfl fun k _ => ?_
  have el : lidx_main_v0 (ix2 r c) k = ix2 r k :=
    funext fun a => Fin.ext (by match a with | ⟨0, _⟩ => rfl | ⟨1, _⟩ => rfl)
  have er : ridx_main_v0 (ix2 r c) k = ix2 k c :=
    funext fun a => Fin.ext (by match a with | ⟨0, _⟩ => rfl | ⟨1, _⟩ => rfl)
  rw [el, er]

/-- adj · (x · W1) + b1 at (r, c): the sum over the 10000 rows first, then the bias of column c. -/
theorem hid_at (r : Fin 10000) (c : Fin 128) :
    val_main_v4 (F := Ideal) x adj w1 b1 (ix2 r c) = Cert.Spec.hid x adj w1 b1 r c := by
  rw [val_main_v4_apply, val_main_v1_apply, val_main_v3_apply, val_main_v2_apply]
  unfold Cert.Spec.hid
  simp only [Ideal.addf_def]
  refine congrArg₂ (· + ·) (Finset.sum_congr rfl fun k _ => ?_)
    (congrArg b1 (funext fun a => Fin.ext (by match a with | ⟨0, _⟩ => rfl)))
  have el : lidx_main_v1 (ix2 r c) k = ix2 r k :=
    funext fun a => Fin.ext (by match a with | ⟨0, _⟩ => rfl | ⟨1, _⟩ => rfl)
  have er : ridx_main_v1 (ix2 r c) k = ix2 k c :=
    funext fun a => Fin.ext (by match a with | ⟨0, _⟩ => rfl | ⟨1, _⟩ => rfl)
  rw [el, er, sup1_at]

/-- The rectifier at (r, c): h where h ≥ 0, the slope times h elsewhere, h the hidden value there. -/
theorem act_at (r : Fin 10000) (c : Fin 128) :
    val_main_v9 (F := Ideal) x adj w1 b1 (ix2 r c) = Cert.Spec.act (Cert.Spec.hid x adj w1 b1 r c) := by
  rw [val_main_v9_apply, val_main_v6_apply, val_main_v8_apply, val_main_v5_apply, val_main_cst_apply,
    val_main_v7_apply, val_main_cst_0_apply, hid_at]
  rfl

/-- act(hid) · W2 at (r, j). -/
theorem sup2_at (r : Fin 10000) (j : Fin 64) :
    val_main_v10 (F := Ideal) x adj w1 b1 w2 (ix2 r j) = Cert.Spec.sup2 x adj w1 b1 w2 r j := by
  rw [val_main_v10_apply]
  unfold Cert.Spec.sup2
  refine Finset.sum_congr rfl fun k _ => ?_
  have el : lidx_main_v10 (ix2 r j) k = ix2 r k :=
    funext fun a => Fin.ext (by match a with | ⟨0, _⟩ => rfl | ⟨1, _⟩ => rfl)
  have er : ridx_main_v10 (ix2 r j) k = ix2 k j :=
    funext fun a => Fin.ext (by match a with | ⟨0, _⟩ => rfl | ⟨1, _⟩ => rfl)
  rw [el, er, act_at]

/-- adj · sup2 + b2 at (r, j). -/
theorem logit_at (r : Fin 10000) (j : Fin 64) :
    val_main_v14 (F := Ideal) x adj w1 b1 w2 b2 (ix2 r j) = Cert.Spec.logit x adj w1 b1 w2 b2 r j := by
  rw [val_main_v14_apply, val_main_v11_apply, val_main_v13_apply, val_main_v12_apply]
  unfold Cert.Spec.logit
  simp only [Ideal.addf_def]
  refine congrArg₂ (· + ·) (Finset.sum_congr rfl fun k _ => ?_)
    (congrArg b2 (funext fun a => Fin.ext (by match a with | ⟨0, _⟩ => rfl)))
  have el : lidx_main_v11 (ix2 r j) k = ix2 r k :=
    funext fun a => Fin.ext (by match a with | ⟨0, _⟩ => rfl | ⟨1, _⟩ => rfl)
  have er : ridx_main_v11 (ix2 r j) k = ix2 k j :=
    funext fun a => Fin.ext (by match a with | ⟨0, _⟩ => rfl | ⟨1, _⟩ => rfl)
  rw [el, er, sup2_at]

/-- Row r with the column coordinate k put back is (r, k). -/
theorem lift_row (h : S10000x64.Reduces [1] S10000) (r : Fin 10000) (k : Fin (S10000x64.size 1)) :
    h.lift (ix1 r) k = ix2 r (⟨k.val, k.isLt⟩ : Fin 64) :=
  funext fun a => Fin.ext (by match a with | ⟨0, _⟩ => rfl | ⟨1, _⟩ => rfl)

/-- −∞ is the least extended real, so the maximum with it changes nothing. -/
theorem max_ninf (y : EReal) : max (Ideal.ofBits .f32 0xFF800000#32) y = y := by
  simp [Ideal.ofBits, Ideal.ieee]

/-- The row maximum at r: the reduce is the fold of max from −∞ over the 64 logits of the row, and the further maximum
    with −∞ is the identity. -/
theorem rowMax_at (r : Fin 10000) :
    val_main_call1_v2 (F := Ideal) x adj w1 b1 w2 b2 (ix1 r) = Cert.Spec.rowMax x adj w1 b1 w2 b2 r := by
  have h : S10000x64.Reduces [1] S10000 := by decide
  rw [val_main_call1_v2_apply, val_main_call1_v1_apply, val_main_call1_cst_0_apply]
  unfold val_main_call1_v0
  rw [Host.reduce_eq_fold_single FloatOps.maximumf _ _ reducesTo_S10000x64_S10000_d1 h h_S_, val_main_call1_cst_apply]
  have hf : (val_main_v14 (F := Ideal) x adj w1 b1 w2 b2 ∘ h.lift (ix1 r))
      = fun j : Fin 64 => Cert.Spec.logit x adj w1 b1 w2 b2 r j :=
    funext fun j => (congrArg (val_main_v14 (F := Ideal) x adj w1 b1 w2 b2) (lift_row h r j)).trans
      (logit_at x adj w1 b1 w2 b2 r j)
  rw [hf]
  unfold Cert.Spec.rowMax
  exact max_ninf _

/-- The logits of row r less their maximum, at (r, j). -/
theorem shifted_at (r : Fin 10000) (j : Fin 64) :
    val_main_call1_v5 (F := Ideal) x adj w1 b1 w2 b2 (ix2 r j) = Cert.Spec.shifted x adj w1 b1 w2 b2 r j := by
  have e : idx_main_call1_v3 (idx_main_call1_v4 (ix2 r j)) = ix1 r :=
    funext fun a => Fin.ext (by match a with | ⟨0, _⟩ => rfl)
  rw [val_main_call1_v5_apply, val_main_call1_v4_apply, val_main_call1_v3_apply, logit_at, e, rowMax_at]
  rfl

/-- The sum of the exponentials of row r: zero plus the sum over the 64 columns. -/
theorem sumExp_at (r : Fin 10000) :
    val_main_call1_v7 (F := Ideal) x adj w1 b1 w2 b2 (ix1 r)
      = ∑ j' : Fin 64, Ideal.exp (Cert.Spec.shifted x adj w1 b1 w2 b2 r j') := by
  rw [val_main_call1_v7_apply, val_main_call1_cst_1_apply, Ideal.ofBits_def, Ideal.ofBits_zero_f32, zero_add]
  refine Finset.sum_congr rfl fun k _ => ?_
  have e : idx_main_call1_v7 (ix1 r) k = ix2 r k :=
    funext fun a => Fin.ext (by match a with | ⟨0, _⟩ => rfl | ⟨1, _⟩ => rfl)
  rw [e, val_main_call1_v6_apply, shifted_at]
  rfl

/-- The log-softmax at (r, j). -/
theorem out_at (r : Fin 10000) (j : Fin 64) :
    val_main_v15 (F := Ideal) x adj w1 b1 w2 b2 (ix2 r j) = Cert.Spec.out x adj w1 b1 w2 b2 r j := by
  have e : idx_main_call1_v8 (idx_main_call1_v10 (ix2 r j)) = ix1 r :=
    funext fun a => Fin.ext (by match a with | ⟨0, _⟩ => rfl)
  rw [val_main_v15_apply, val_main_call1_v10_apply, val_main_call1_v9_apply, val_main_call1_v8_apply, shifted_at, e,
    sumExp_at]
  rfl

end Stages

variable (m : (ℓ : Loc nD τ sig) → Buf (Elt Ideal) ℓ)

/-- The reference's result is the specified function of the launch arguments. -/
theorem res_eq_G (c : Dev nD) :
    Cert.ReferenceIdeal.ValueP.res_out0 (F := Ideal) m c = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (val_main_v15_eq (F := Ideal) m c).trans ?_
  funext i
  obtain ⟨r, j, rfl⟩ : ∃ (r : Fin 10000) (j : Fin 64), i = ix2 r j := ⟨i 0, i 1, eq_ix2 i⟩
  exact out_at _ _ _ _ _ _ r j

end Cert.ReferenceIdeal.RefValue

end
-- ==== Proof.lean ====
/-
  The certificate of a dense two-layer graph convolution with a row-wise log-softmax: the kernel's two regions against
  the reference's chain of host operations, over the extended reals.

  Both programs compute, from x, the adjacency adj, W1, b1, W2 and b2,
      out = log_softmax(adj · (leaky(adj · (x · W1) + b1) · W2) + b2)   row by row,
  with leaky h = h for h ≥ 0 and 0.2·h otherwise. The kernel tiles the rows of adj in 25 blocks of 400, keeps x · W1 in a
  scratch buffer from the first grid point on, and takes each row's maximum and sum of exponentials inside the block;
  the reference does the same operations on whole arrays (its one extra maximum with −∞ is the identity). Every sum and
  every difference is grouped the same way on both sides, so no law that needs finite entries is used: the precondition
  is never opened.

  The three frames: each kernel program runs as two host reshapes followed by the two regions, every argument buffer
  outside what any item writes; the reference's is its run with the result dropped. The idealization rewrote nothing,
  so its conjunct is trivial. The value: the kernel's result buffer ends at the second region's write-backs, which are
  the specified function of the arguments (block by block, then by the cover of the rows), and the reference's result
  is the same specified function.
-/
import proofs.«144608_g13657996001618_cont_week2b_1100_2_alg».proof.Defs
import proofs.«144608_g13657996001618_cont_week2b_1100_2_alg».proof.Proof.Gen.Kernel
import proofs.«144608_g13657996001618_cont_week2b_1100_2_alg».proof.Proof.Gen.KernelIdeal
import proofs.«144608_g13657996001618_cont_week2b_1100_2_alg».proof.Proof.Gen.ReferenceIdeal
import proofs.«144608_g13657996001618_cont_week2b_1100_2_alg».proof.Proof.Gen.Pre_finite_inputs
import proofs.«144608_g13657996001618_cont_week2b_1100_2_alg».proof.Proof.BitsHidden
import proofs.«144608_g13657996001618_cont_week2b_1100_2_alg».proof.Proof.BitsLogits
import proofs.«144608_g13657996001618_cont_week2b_1100_2_alg».proof.Proof.BitsRun
import proofs.«144608_g13657996001618_cont_week2b_1100_2_alg».proof.Proof.IdealHidden
import proofs.«144608_g13657996001618_cont_week2b_1100_2_alg».proof.Proof.IdealLogits
import proofs.«144608_g13657996001618_cont_week2b_1100_2_alg».proof.Proof.IdealRun
import proofs.«144608_g13657996001618_cont_week2b_1100_2_alg».proof.Proof.IdealRunValue
import proofs.«144608_g13657996001618_cont_week2b_1100_2_alg».proof.Proof.HiddenValue
import proofs.«144608_g13657996001618_cont_week2b_1100_2_alg».proof.Proof.LogitsValue
import proofs.«144608_g13657996001618_cont_week2b_1100_2_alg».proof.Proof.RefRun
import proofs.«144608_g13657996001618_cont_week2b_1100_2_alg».proof.Proof.RefValue
import Idealize.ShloMosaic.Adequacy
import Idealize.ShloMosaic.Init

noncomputable section

namespace Cert.Proof

open Idealize.ShloMosaic Idealize.SL.Sem

/-- The printed kernel runs to the end with its arguments unchanged. -/
theorem frame_k : Cert.frame_Kernel := fun m ρ _ =>
  Cert.Kernel.Run.frame m ρ (fun c => Cert.Kernel.Hidden.body_obligation0 _ c) (fun c => Cert.Kernel.Hidden.hin0 _ c)
    (fun c => Cert.Kernel.Hidden.hout0 _ c) (fun c => Cert.Kernel.Logits.body_obligation1 _ c)

/-- So does the idealized kernel. -/
theorem frame_ki : Cert.frame_KernelIdeal := fun m ρ _ =>
  Cert.KernelIdeal.Run.frame m ρ (fun c => Cert.KernelIdeal.Hidden.body_obligation0 _ c) (fun c => Cert.KernelIdeal.Hidden.hin0 _ c)
    (fun c => Cert.KernelIdeal.Hidden.hout0 _ c) (fun c => Cert.KernelIdeal.Logits.body_obligation1 _ c)

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's result buffer ends at the specified function of the arguments: the second region's write-backs over
    the first region's, each the specified array. -/
theorem kernel_value (m : (ℓ : Loc Cert.KernelIdeal.nD Cert.KernelIdeal.τ Cert.KernelIdeal.sig) → Buf (Elt Ideal) ℓ) (c : Dev Cert.KernelIdeal.nD) :
    Cert.KernelIdeal.Entry.outArr (F := Ideal) m c = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  Cert.KernelIdeal.LogitsValue.outArr_eq_of m c (Cert.KernelIdeal.HiddenValue.s2arr_eq m c)

/-- From memories agreeing on the arguments both idealized programs end with the same result: each is the specified
    function of the same arguments. -/
theorem algebraic : Cert.algebraic_KernelIdeal_ReferenceIdeal := by
  intro m ρ m' ρ' _ hagree
  refine ⟨fun c => Cert.KernelIdeal.Entry.outArr (F := Ideal) m c,
    Cert.KernelIdeal.Run.run_value (F := Ideal) m ρ (fun c => Cert.KernelIdeal.Hidden.body_obligation0 _ c)
      (fun c => Cert.KernelIdeal.Hidden.hin0 _ c) (fun c => Cert.KernelIdeal.Hidden.hout0 _ c)
      (fun c => Cert.KernelIdeal.Logits.body_obligation1 _ c), ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  refine ((Cert.ReferenceIdeal.RefValue.res_eq_G m' c).trans ?_).trans (kernel_value m c).symm
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
